-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩
abbrev S16384x1 : Shape := ⟨2, ![16384, 1]⟩
abbrev S16384x33 : Shape := ⟨2, ![16384, 33]⟩
abbrev S32x512x33 : Shape := ⟨3, ![32, 512, 33]⟩
abbrev S32x1024x33 : Shape := ⟨3, ![32, 1024, 33]⟩
abbrev S32768x33 : Shape := ⟨2, ![32768, 33]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S4096x33 : Shape := ⟨2, ![4096, 33]⟩
abbrev S2048x128 : Shape := ⟨2, ![2048, 128]⟩
abbrev S1024x33 : Shape := ⟨2, ![1024, 33]⟩
abbrev S33x256 : Shape := ⟨2, ![33, 256]⟩
abbrev S1024x256 : Shape := ⟨2, ![1024, 256]⟩
abbrev S256x32 : Shape := ⟨2, ![256, 32]⟩
abbrev S1024x32 : Shape := ⟨2, ![1024, 32]⟩
abbrev S512x32 : Shape := ⟨2, ![512, 32]⟩
abbrev S512x1 : Shape := ⟨2, ![512, 1]⟩
abbrev S512x65 : Shape := ⟨2, ![512, 65]⟩
abbrev S65x256 : Shape := ⟨2, ![65, 256]⟩
abbrev S512x256 : Shape := ⟨2, ![512, 256]⟩
abbrev S256x128 : Shape := ⟨2, ![256, 128]⟩
abbrev S512x128 : Shape := ⟨2, ![512, 128]⟩

abbrev nBuf : Space → Nat
  | .hbm => 31
  | .vmem => 10
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S_, .f32⟩
  | .hbm, ⟨11, _⟩ => ⟨S16384x1, .f32⟩
  | .hbm, ⟨12, _⟩ => ⟨S16384x33, .f32⟩
  | .hbm, ⟨13, _⟩ => ⟨S16384x33, .bf16⟩
  | .hbm, ⟨14, _⟩ => ⟨S16384x33, .f32⟩
  | .hbm, ⟨15, _⟩ => ⟨S16384x33, .bf16⟩
  | .hbm, ⟨16, _⟩ => ⟨S32x512x33, .bf16⟩
  | .hbm, ⟨17, _⟩ => ⟨S32x512x33, .bf16⟩
  | .hbm, ⟨18, _⟩ => ⟨S32x1024x33, .bf16⟩
  | .hbm, ⟨19, _⟩ => ⟨S32768x33, .bf16⟩
  | .hbm, ⟨20, _⟩ => ⟨S1x4096, .f32⟩
  | .hbm, ⟨21, _⟩ => ⟨S33x4096, .f32⟩
  | .hbm, ⟨22, _⟩ => ⟨S33x4096, .bf16⟩
  | .hbm, ⟨23, _⟩ => ⟨S1x4096, .f32⟩
  | .hbm, ⟨24, _⟩ => ⟨S65x4096, .f32⟩
  | .hbm, ⟨25, _⟩ => ⟨S65x4096, .bf16⟩
  | .hbm, ⟨26, _⟩ => ⟨S4096x32, .bf16⟩
  | .hbm, ⟨27, _⟩ => ⟨S1x32, .f32⟩
  | .hbm, ⟨28, _⟩ => ⟨S4096x128, .bf16⟩
  | .hbm, ⟨29, _⟩ => ⟨S1x128, .f32⟩
  | .hbm, ⟨30, _⟩ => ⟨S16384x128, .f32⟩
  | .local _ .vmem, ⟨0, _⟩ => ⟨S4096x33, .bf16⟩
  | .local _ .vmem, ⟨1, _⟩ => ⟨S4096x33, .bf16⟩
  | .local _ .vmem, ⟨2, _⟩ => ⟨S33x4096, .bf16⟩
  | .local _ .vmem, ⟨3, _⟩ => ⟨S4096x32, .bf16⟩
  | .local _ .vmem, ⟨4, _⟩ => ⟨S1x32, .f32⟩
  | .local _ .vmem, ⟨5, _⟩ => ⟨S65x4096, .bf16⟩
  | .local _ .vmem, ⟨6, _⟩ => ⟨S4096x128, .bf16⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x33 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16384x1 : S_.BroadcastsInDim S16384x1 (![] : Fin 0 → Fin S16384x1.rank)
  concatenates_S16384x32_S16384x1_S16384x33_d1 : Shape.Concatenates [S16384x32, S16384x1] S16384x33 1
  bitsLt_bf16_f32 : FTy.bits .bf16 < FTy.bits .f32
  shapeCasts_S16384x33_S32x512x33 : S16384x33.ShapeCasts S32x512x33
  concatenates_S32x512x33_S32x512x33_S32x1024x33_d1 : Shape.Concatenates [S32x512x33, S32x512x33] S32x1024x33 1
  shapeCasts_S32x1024x33_S32768x33 : S32x1024x33.ShapeCasts S32768x33
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S4096x33_S1024x33_0_0 : ∀ a, (![0, 0] : Fin 2 → Nat) a + S1024x33.size a ≤ S4096x33.size a
  h_S1024x33 : 0 < S1024x33.numel
  shapeCasts_S1024x33_S1024x33 : S1024x33.ShapeCasts S1024x33
  inb_S4096x33_S1024x33_1024_0 : ∀ a, (![1024, 0] : Fin 2 → Nat) a + S1024x33.size a ≤ S4096x33.size a
  inb_S4096x33_S1024x33_2048_0 : ∀ a, (![2048, 0] : Fin 2 → Nat) a + S1024x33.size a ≤ S4096x33.size a
  inb_S4096x33_S1024x33_3072_0 : ∀ a, (![3072, 0] : Fin 2 → Nat) a + S1024x33.size a ≤ S4096x33.size a
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S33x4096_S33x256_0_0 : ∀ a, (![0, 0] : Fin 2 → Nat) a + S33x256.size a ≤ S33x4096.size a
  h_S33x256 : 0 < S33x256.numel
  shapeCasts_S33x256_S33x256 : S33x256.ShapeCasts S33x256
  inb_S4096x32_S256x32_0_0 : ∀ a, (![0, 0] : Fin 2 → Nat) a + S256x32.size a ≤ S4096x32.size a
  h_S256x32 : 0 < S256x32.numel
  shapeCasts_S256x32_S256x32 : S256x32.ShapeCasts S256x32
  broadcasts_S1x32_S1024x32 : S1x32.Broadcasts S1024x32
  inb_S33x4096_S33x256_0_256 : ∀ a, (![0, 256] : Fin 2 → Nat) a + S33x256.size a ≤ S33x4096.size a
  inb_S4096x32_S256x32_256_0 : ∀ a, (![256, 0] : Fin 2 → Nat) a + S256x32.size a ≤ S4096x32.size a
  inb_S33x4096_S33x256_0_512 : ∀ a, (![0, 512] : Fin 2 → Nat) a + S33x256.size a ≤ S33x4096.size a
  inb_S4096x32_S256x32_512_0 : ∀ a, (![512, 0] : Fin 2 → Nat) a + S256x32.size a ≤ S4096x32.size a
  inb_S33x4096_S33x256_0_768 : ∀ a, (![0, 768] : Fin 2 → Nat) a + S33x256.size a ≤ S33x4096.size a
  inb_S4096x32_S256x32_768_0 : ∀ a, (![768, 0] : Fin 2 → Nat) a + S256x32.size a ≤ S4096x32.size a
  inb_S33x4096_S33x256_0_1024 : ∀ a, (![0, 1024] : Fin 2 → Nat) a + S33x256.size a ≤ S33x4096.size a
  inb_S4096x32_S256x32_1024_0 : ∀ a, (![1024, 0] : Fin 2 → Nat) a + S256x32.size a ≤ S4096x32.size a
  inb_S33x4096_S33x256_0_1280 : ∀ a, (![0, 1280] : Fin 2 → Nat) a + S33x256.size a ≤ S33x4096.size a
  inb_S4096x32_S256x32_1280_0 : ∀ a, (![1280, 0] : Fin 2 → Nat) a + S256x32.size a ≤ S4096x32.size a
  inb_S33x4096_S33x256_0_1536 : ∀ a, (![0, 1536] : Fin 2 → Nat) a + S33x256.size a ≤ S33x4096.size a
  inb_S4096x32_S256x32_1536_0 : ∀ a, (![1536, 0] : Fin 2 → Nat) a + S256x32.size a ≤ S4096x32.size a
  inb_S33x4096_S33x256_0_1792 : ∀ a, (![0, 1792] : Fin 2 → Nat) a + S33x256.size a ≤ S33x4096.size a
  inb_S4096x32_S256x32_1792_0 : ∀ a, (![1792, 0] : Fin 2 → Nat) a + S256x32.size a ≤ S4096x32.size a
  inb_S33x4096_S33x256_0_2048 : ∀ a, (![0, 2048] : Fin 2 → Nat) a + S33x256.size a ≤ S33x4096.size a
  inb_S4096x32_S256x32_2048_0 : ∀ a, (![2048, 0] : Fin 2 → Nat) a + S256x32.size a ≤ S4096x32.size a
  inb_S33x4096_S33x256_0_2304 : ∀ a, (![0, 2304] : Fin 2 → Nat) a + S33x256.size a ≤ S33x4096.size a
  inb_S4096x32_S256x32_2304_0 : ∀ a, (![2304, 0] : Fin 2 → Nat) a + S256x32.size a ≤ S4096x32.size a
  inb_S33x4096_S33x256_0_2560 : ∀ a, (![0, 2560] : Fin 2 → Nat) a + S33x256.size a ≤ S33x4096.size a
  inb_S4096x32_S256x32_2560_0 : ∀ a, (![2560, 0] : Fin 2 → Nat) a + S256x32.size a ≤ S4096x32.size a
  inb_S33x4096_S33x256_0_2816 : ∀ a, (![0, 2816] : Fin 2 → Nat) a + S33x256.size a ≤ S33x4096.size a
  inb_S4096x32_S256x32_2816_0 : ∀ a, (![2816, 0] : Fin 2 → Nat) a + S256x32.size a ≤ S4096x32.size a
  inb_S33x4096_S33x256_0_3072 : ∀ a, (![0, 3072] : Fin 2 → Nat) a + S33x256.size a ≤ S33x4096.size a
  inb_S4096x32_S256x32_3072_0 : ∀ a, (![3072, 0] : Fin 2 → Nat) a + S256x32.size a ≤ S4096x32.size a
  inb_S33x4096_S33x256_0_3328 : ∀ a, (![0, 3328] : Fin 2 → Nat) a + S33x256.size a ≤ S33x4096.size a
  inb_S4096x32_S256x32_3328_0 : ∀ a, (![3328, 0] : Fin 2 → Nat) a + S256x32.size a ≤ S4096x32.size a
  inb_S33x4096_S33x256_0_3584 : ∀ a, (![0, 3584] : Fin 2 → Nat) a + S33x256.size a ≤ S33x4096.size a
  inb_S4096x32_S256x32_3584_0 : ∀ a, (![3584, 0] : Fin 2 → Nat) a + S256x32.size a ≤ S4096x32.size a
  inb_S33x4096_S33x256_0_3840 : ∀ a, (![0, 3840] : Fin 2 → Nat) a + S33x256.size a ≤ S33x4096.size a
  inb_S4096x32_S256x32_3840_0 : ∀ a, (![3840, 0] : Fin 2 → Nat) a + S256x32.size a ≤ S4096x32.size a
  slices_S1024x32_o0_0_S512x32 : S1024x32.Slices ![0, 0] S512x32
  slices_S1024x32_o512_0_S512x32 : S1024x32.Slices ![512, 0] S512x32
  concatenates_S512x32_S512x32_S512x1_S512x65_d1 : Shape.Concatenates [S512x32, S512x32, S512x1] S512x65 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S65x4096_S65x256_0_0 : ∀ a, (![0, 0] : Fin 2 → Nat) a + S65x256.size a ≤ S65x4096.size a
  h_S65x256 : 0 < S65x256.numel
  shapeCasts_S65x256_S65x256 : S65x256.ShapeCasts S65x256
  inb_S4096x128_S256x128_0_0 : ∀ a, (![0, 0] : Fin 2 → Nat) a + S256x128.size a ≤ S4096x128.size a
  h_S256x128 : 0 < S256x128.numel
  shapeCasts_S256x128_S256x128 : S256x128.ShapeCasts S256x128
  broadcasts_S1x128_S512x128 : S1x128.Broadcasts S512x128
  inb_S65x4096_S65x256_0_256 : ∀ a, (![0, 256] : Fin 2 → Nat) a + S65x256.size a ≤ S65x4096.size a
  inb_S4096x128_S256x128_256_0 : ∀ a, (![256, 0] : Fin 2 → Nat) a + S256x128.size a ≤ S4096x128.size a
  inb_S65x4096_S65x256_0_512 : ∀ a, (![0, 512] : Fin 2 → Nat) a + S65x256.size a ≤ S65x4096.size a
  inb_S4096x128_S256x128_512_0 : ∀ a, (![512, 0] : Fin 2 → Nat) a + S256x128.size a ≤ S4096x128.size a
  inb_S65x4096_S65x256_0_768 : ∀ a, (![0, 768] : Fin 2 → Nat) a + S65x256.size a ≤ S65x4096.size a
  inb_S4096x128_S256x128_768_0 : ∀ a, (![768, 0] : Fin 2 → Nat) a + S256x128.size a ≤ S4096x128.size a
  inb_S65x4096_S65x256_0_1024 : ∀ a, (![0, 1024] : Fin 2 → Nat) a + S65x256.size a ≤ S65x4096.size a
  inb_S4096x128_S256x128_1024_0 : ∀ a, (![1024, 0] : Fin 2 → Nat) a + S256x128.size a ≤ S4096x128.size a
  inb_S65x4096_S65x256_0_1280 : ∀ a, (![0, 1280] : Fin 2 → Nat) a + S65x256.size a ≤ S65x4096.size a
  inb_S4096x128_S256x128_1280_0 : ∀ a, (![1280, 0] : Fin 2 → Nat) a + S256x128.size a ≤ S4096x128.size a
  inb_S65x4096_S65x256_0_1536 : ∀ a, (![0, 1536] : Fin 2 → Nat) a + S65x256.size a ≤ S65x4096.size a
  inb_S4096x128_S256x128_1536_0 : ∀ a, (![1536, 0] : Fin 2 → Nat) a + S256x128.size a ≤ S4096x128.size a
  inb_S65x4096_S65x256_0_1792 : ∀ a, (![0, 1792] : Fin 2 → Nat) a + S65x256.size a ≤ S65x4096.size a
  inb_S4096x128_S256x128_1792_0 : ∀ a, (![1792, 0] : Fin 2 → Nat) a + S256x128.size a ≤ S4096x128.size a
  inb_S65x4096_S65x256_0_2048 : ∀ a, (![0, 2048] : Fin 2 → Nat) a + S65x256.size a ≤ S65x4096.size a
  inb_S4096x128_S256x128_2048_0 : ∀ a, (![2048, 0] : Fin 2 → Nat) a + S256x128.size a ≤ S4096x128.size a
  inb_S65x4096_S65x256_0_2304 : ∀ a, (![0, 2304] : Fin 2 → Nat) a + S65x256.size a ≤ S65x4096.size a
  inb_S4096x128_S256x128_2304_0 : ∀ a, (![2304, 0] : Fin 2 → Nat) a + S256x128.size a ≤ S4096x128.size a
  inb_S65x4096_S65x256_0_2560 : ∀ a, (![0, 2560] : Fin 2 → Nat) a + S65x256.size a ≤ S65x4096.size a
  inb_S4096x128_S256x128_2560_0 : ∀ a, (![2560, 0] : Fin 2 → Nat) a + S256x128.size a ≤ S4096x128.size a
  inb_S65x4096_S65x256_0_2816 : ∀ a, (![0, 2816] : Fin 2 → Nat) a + S65x256.size a ≤ S65x4096.size a
  inb_S4096x128_S256x128_2816_0 : ∀ a, (![2816, 0] : Fin 2 → Nat) a + S256x128.size a ≤ S4096x128.size a
  inb_S65x4096_S65x256_0_3072 : ∀ a, (![0, 3072] : Fin 2 → Nat) a + S65x256.size a ≤ S65x4096.size a
  inb_S4096x128_S256x128_3072_0 : ∀ a, (![3072, 0] : Fin 2 → Nat) a + S256x128.size a ≤ S4096x128.size a
  inb_S65x4096_S65x256_0_3328 : ∀ a, (![0, 3328] : Fin 2 → Nat) a + S65x256.size a ≤ S65x4096.size a
  inb_S4096x128_S256x128_3328_0 : ∀ a, (![3328, 0] : Fin 2 → Nat) a + S256x128.size a ≤ S4096x128.size a
  inb_S65x4096_S65x256_0_3584 : ∀ a, (![0, 3584] : Fin 2 → Nat) a + S65x256.size a ≤ S65x4096.size a
  inb_S4096x128_S256x128_3584_0 : ∀ a, (![3584, 0] : Fin 2 → Nat) a + S256x128.size a ≤ S4096x128.size a
  inb_S65x4096_S65x256_0_3840 : ∀ a, (![0, 3840] : Fin 2 → Nat) a + S65x256.size a ≤ S65x4096.size a
  inb_S4096x128_S256x128_3840_0 : ∀ a, (![3840, 0] : Fin 2 → Nat) a + S256x128.size a ≤ S4096x128.size a
  inb_S2048x128_S512x128_0_0 : ∀ a, (![0, 0] : Fin 2 → Nat) a + S512x128.size a ≤ S2048x128.size a
  h_S512x128 : 0 < S512x128.numel
  inb_S2048x128_S512x128_512_0 : ∀ a, (![512, 0] : Fin 2 → Nat) a + S512x128.size a ≤ S2048x128.size a
  inb_S2048x128_S512x128_1024_0 : ∀ a, (![1024, 0] : Fin 2 → Nat) a + S512x128.size a ≤ S2048x128.size a
  inb_S2048x128_S512x128_1536_0 : ∀ a, (![1536, 0] : Fin 2 → Nat) a + S512x128.size a ≤ S2048x128.size a
  dot_S1024x33_S33x256_S1024x256_1_0_0_1_n_n_wf : DotDims.WF S1024x33 S33x256 S1024x256 [1] [0] [0] [1] [] []
  dot_S1024x256_S256x32_S1024x32_1_0_0_1_n_n_wf : DotDims.WF S1024x256 S256x32 S1024x32 [1] [0] [0] [1] [] []
  dot_S512x65_S65x256_S512x256_1_0_0_1_n_n_wf : DotDims.WF S512x65 S65x256 S512x256 [1] [0] [0] [1] [] []
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x33.size a ≤ S32768x33.size a
  hwx0_0 : ∀ i : grid0.Coords, EltTy.bits .bf16 = 32 ∨ (Rect.block (s := S32768x33) S4096x33.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S33x4096.size a ≤ S33x4096.size a
  hwx0_1 : ∀ i : grid0.Coords, EltTy.bits .bf16 = 32 ∨ (Rect.block (s := S33x4096) S33x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .bf16 = 32 ∨ (Rect.block (s := S4096x32) S4096x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x4096.size a ≤ S65x4096.size a
  hwx0_4 : ∀ i : grid0.Coords, EltTy.bits .bf16 = 32 ∨ (Rect.block (s := S65x4096) S65x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S16384x128.size a
  hwx0_7 : ∀ i : grid0.Coords, EltTy.bits .f32 = 32 ∨ (Rect.block (s := S16384x128) S2048x128.size (cc0_transform_7 i) (hinb0_7 i)).WholeWords (EltTy.packing .f32)

variable [Facts₀]

def dot_S1024x33_S33x256_S1024x256_1_0_0_1_n_n : DotDims S1024x33 S33x256 S1024x256 where
  lhsContracting := [1]
  rhsContracting := [0]
  lhsNonContracting := [0]
  rhsNonContracting := [1]
  lhsBatch := []
  rhsBatch := []
  wf := dot_S1024x33_S33x256_S1024x256_1_0_0_1_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S512x65_S65x256_S512x256_1_0_0_1_n_n : DotDims S512x65 S65x256 S512x256 where
  lhsContracting := [1]
  rhsContracting := [0]
  lhsNonContracting := [0]
  rhsNonContracting := [1]
  lhsBatch := []
  rhsBatch := []
  wf := dot_S512x65_S65x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_v8) S4096x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S33x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S65x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.Streams.lean ====
/-
  The body of the kernel, read as four copies of one function of a row block.

  A grid point's input block holds 4096 rows of 33 columns: four "streams" of 1024 rows each, the first 512 rows of a
  stream being rows of the first input (with a trailing column of ones), the last 512 the matching rows of the second
  input. For a stream `x` the body computes, with the 4096 hidden columns taken in 16 chunks of 256:
    a₂ = b₂ + Σ_chunks relu(x · W₁ᶜ) · W₂ᶜ            (1024 × 32; the bias b₁ sits in the last row of W₁)
    u  = [relu a₂ (rows 0..511) | relu a₂ (rows 512..1023) | 1]   (512 × 65)
    a₄ = b₄ + Σ_chunks relu(u · W₃ᶜ) · W₄ᶜ            (512 × 128; the bias b₃ sits in the last row of W₃)
  and stores a₄ of stream k into rows 512k .. 512k+511 of the output block. This module states that shape once,
  for any float instance, and shows that the buffer the body leaves is exactly the four pieces.
-/
import proofs.«140537_g11802570129985_cont_fleet_79_23_alg».proof.Proof.Gen.KernelIdeal.Frame

noncomputable section

namespace Cert.KernelIdeal.Streams

open Idealize.ShloMosaic Idealize.ShloMosaic.TcCoe Idealize.SL.Sem Cert.KernelIdeal Cert.KernelIdeal.Gen

variable {F : FTy → Type} [FloatOps F]

/-- Column chunk `c` (256 columns) of the first layer's weights, as the body loads it. -/
def w1c (x1 : Vec F S33x4096 .bf16) : Fin 16 → Vec F S33x256 .bf16
  | ⟨0, _⟩ => View.ld x1 r0_5
  | ⟨1, _⟩ => View.ld x1 r0_7
  | ⟨2, _⟩ => View.ld x1 r0_9
  | ⟨3, _⟩ => View.ld x1 r0_11
  | ⟨4, _⟩ => View.ld x1 r0_13
  | ⟨5, _⟩ => View.ld x1 r0_15
  | ⟨6, _⟩ => View.ld x1 r0_17
  | ⟨7, _⟩ => View.ld x1 r0_19
  | ⟨8, _⟩ => View.ld x1 r0_21
  | ⟨9, _⟩ => View.ld x1 r0_23
  | ⟨10, _⟩ => View.ld x1 r0_25
  | ⟨11, _⟩ => View.ld x1 r0_27
  | ⟨12, _⟩ => View.ld x1 r0_29
  | ⟨13, _⟩ => View.ld x1 r0_31
  | ⟨14, _⟩ => View.ld x1 r0_33
  | ⟨15, _⟩ => View.ld x1 r0_35
  | ⟨_ + 16, h⟩ => absurd h (by omega)

/-- Row chunk `c` (256 rows) of the second layer's weights. -/
def w2c (x2 : Vec F S4096x32 .bf16) : Fin 16 → Vec F S256x32 .bf16
  | ⟨0, _⟩ => View.ld x2 r0_6
  | ⟨1, _⟩ => View.ld x2 r0_8
  | ⟨2, _⟩ => View.ld x2 r0_10
  | ⟨3, _⟩ => View.ld x2 r0_12
  | ⟨4, _⟩ => View.ld x2 r0_14
  | ⟨5, _⟩ => View.ld x2 r0_16
  | ⟨6, _⟩ => View.ld x2 r0_18
  | ⟨7, _⟩ => View.ld x2 r0_20
  | ⟨8, _⟩ => View.ld x2 r0_22
  | ⟨9, _⟩ => View.ld x2 r0_24
  | ⟨10, _⟩ => View.ld x2 r0_26
  | ⟨11, _⟩ => View.ld x2 r0_28
  | ⟨12, _⟩ => View.ld x2 r0_30
  | ⟨13, _⟩ => View.ld x2 r0_32
  | ⟨14, _⟩ => View.ld x2 r0_34
  | ⟨15, _⟩ => View.ld x2 r0_36
  | ⟨_ + 16, h⟩ => absurd h (by omega)

/-- Column chunk `c` of the third layer's weights. -/
def w3c (x4 : Vec F S65x4096 .bf16) : Fin 16 → Vec F S65x256 .bf16
  | ⟨0, _⟩ => View.ld x4 r0_38
  | ⟨1, _⟩ => View.ld x4 r0_40
  | ⟨2, _⟩ => View.ld x4 r0_42
  | ⟨3, _⟩ => View.ld x4 r0_44
  | ⟨4, _⟩ => View.ld x4 r0_46
  | ⟨5, _⟩ => View.ld x4 r0_48
  | ⟨6, _⟩ => View.ld x4 r0_50
  | ⟨7, _⟩ => View.ld x4 r0_52
  | ⟨8, _⟩ => View.ld x4 r0_54
  | ⟨9, _⟩ => View.ld x4 r0_56
  | ⟨10, _⟩ => View.ld x4 r0_58
  | ⟨11, _⟩ => View.ld x4 r0_60
  | ⟨12, _⟩ => View.ld x4 r0_62
  | ⟨13, _⟩ => View.ld x4 r0_64
  | ⟨14, _⟩ => View.ld x4 r0_66
  | ⟨15, _⟩ => View.ld x4 r0_68
  | ⟨_ + 16, h⟩ => absurd h (by omega)

/-- Row chunk `c` of the fourth layer's weights. -/
def w4c (x5 : Vec F S4096x128 .bf16) : Fin 16 → Vec F S256x128 .bf16
  | ⟨0, _⟩ => View.ld x5 r0_39
  | ⟨1, _⟩ => View.ld x5 r0_41
  | ⟨2, _⟩ => View.ld x5 r0_43
  | ⟨3, _⟩ => View.ld x5 r0_45
  | ⟨4, _⟩ => View.ld x5 r0_47
  | ⟨5, _⟩ => View.ld x5 r0_49
  | ⟨6, _⟩ => View.ld x5 r0_51
  | ⟨7, _⟩ => View.ld x5 r0_53
  | ⟨8, _⟩ => View.ld x5 r0_55
  | ⟨9, _⟩ => View.ld x5 r0_57
  | ⟨10, _⟩ => View.ld x5 r0_59
  | ⟨11, _⟩ => View.ld x5 r0_61
  | ⟨12, _⟩ => View.ld x5 r0_63
  | ⟨13, _⟩ => View.ld x5 r0_65
  | ⟨14, _⟩ => View.ld x5 r0_67
  | ⟨15, _⟩ => View.ld x5 r0_69
  | ⟨_ + 16, h⟩ => absurd h (by omega)

/-- The sixteen chunks, in the order the body takes them. -/
def chunks : List (Fin 16) := [0, 1, 2, 3, 4, 5, 6, 7, 8, 9, 10, 11, 12, 13, 14, 15]

/-- relu(x · W₁ᶜ) for one chunk: 1024 × 256. -/
def hid1 (x : FVec F S1024x33 .bf16) (w : Vec F S33x256 .bf16) : FVec F S1024x256 .bf16 :=
  maximumf (truncf .bf16 (matmul dot_S1024x33_S33x256_S1024x256_1_0_0_1_n_n none x (shapeCast S33x256 w shapeCasts_S33x256_S33x256) (constant S1024x256 .f32 0x00000000#32)) bitsLt_bf16_f32)
    (broadcast S1024x256 (Scalar.ofBits .bf16 0x0000#16))

/-- h · W₂ᶜ for one chunk: 1024 × 32. -/
def mm2 (h : FVec F S1024x256 .bf16) (w : Vec F S256x32 .bf16) : FVec F S1024x32 .f32 :=
  matmul dot_S1024x256_S256x32_S1024x32_1_0_0_1_n_n none h (shapeCast S256x32 w shapeCasts_S256x32_S256x32) (constant S1024x32 .f32 0x00000000#32)

/-- a₂: the second layer's pre-activation, the bias first and then one chunk after another. -/
def acc2 (x : FVec F S1024x33 .bf16) (x1 : Vec F S33x4096 .bf16) (x2 : Vec F S4096x32 .bf16) (x3 : Vec F S1x32 .f32) : FVec F S1024x32 .f32 :=
  chunks.foldl (fun acc c => addf acc (mm2 (hid1 x (w1c x1 c)) (w2c x2 c)))
    (broadcastTo S1024x32 (shapeCast S1x32 (View.ld x3 r0_4) shapeCasts_S1x32_S1x32) broadcasts_S1x32_S1024x32)

/-- u: the two halves of relu a₂ side by side, and a column of ones. -/
def mkU (a : FVec F S1024x32 .f32) : FVec F S512x65 .bf16 :=
  truncf .bf16 (concatenate S512x65 1
    [⟨S512x32, extractStridedSlice S512x32 ![0, 0] (maximumf a (broadcast S1024x32 (Scalar.ofBits .f32 0x00000000#32))) slices_S1024x32_o0_0_S512x32⟩,
     ⟨S512x32, extractStridedSlice S512x32 ![512, 0] (maximumf a (broadcast S1024x32 (Scalar.ofBits .f32 0x00000000#32))) slices_S1024x32_o512_0_S512x32⟩,
     ⟨S512x1, broadcast S512x1 (Scalar.ofBits .f32 0x3F800000#32)⟩] concatenates_S512x32_S512x32_S512x1_S512x65_d1) bitsLt_bf16_f32

/-- relu(u · W₃ᶜ) for one chunk: 512 × 256. -/
def hid3 (u : FVec F S512x65 .bf16) (w : Vec F S65x256 .bf16) : FVec F S512x256 .bf16 :=
  maximumf (truncf .bf16 (matmul dot_S512x65_S65x256_S512x256_1_0_0_1_n_n none u (shapeCast S65x256 w shapeCasts_S65x256_S65x256) (constant S512x256 .f32 0x00000000#32)) bitsLt_bf16_f32)
    (broadcast S512x256 (Scalar.ofBits .bf16 0x0000#16))

/-- h · W₄ᶜ for one chunk: 512 × 128. -/
def mm4 (h : FVec F S512x256 .bf16) (w : Vec F S256x128 .bf16) : FVec F S512x128 .f32 :=
  matmul dot_S512x256_S256x128_S512x128_1_0_0_1_n_n none h (shapeCast S256x128 w shapeCasts_S256x128_S256x128) (constant S512x128 .f32 0x00000000#32)

/-- a₄: the output rows of one stream. -/
def acc4 (u : FVec F S512x65 .bf16) (x4 : Vec F S65x4096 .bf16) (x5 : Vec F S4096x128 .bf16) (x6 : Vec F S1x128 .f32) : FVec F S512x128 .f32 :=
  chunks.foldl (fun acc c => addf acc (mm4 (hid3 u (w3c x4 c)) (w4c x5 c)))
    (broadcastTo S512x128 (shapeCast S1x128 (View.ld x6 r0_37) shapeCasts_S1x128_S1x128) broadcasts_S1x128_S512x128)

/-- One stream, from its 1024 loaded rows to its 512 output rows. -/
def stream (x : Vec F S1024x33 .bf16) (x1 : Vec F S33x4096 .bf16) (x2 : Vec F S4096x32 .bf16) (x3 : Vec F S1x32 .f32)
    (x4 : Vec F S65x4096 .bf16) (x5 : Vec F S4096x128 .bf16) (x6 : Vec F S1x128 .f32) : FVec F S512x128 .f32 :=
  acc4 (mkU (acc2 (shapeCast S1024x33 x shapeCasts_S1024x33_S1024x33) x1 x2 x3)) x4 x5 x6

/-- What the body leaves in the output block: the four streams' results, each in its own 512 rows. -/
theorem out_eq (x0 : Vec F S4096x33 .bf16) (x1 : Vec F S33x4096 .bf16) (x2 : Vec F S4096x32 .bf16) (x3 : Vec F S1x32 .f32)
    (x4 : Vec F S65x4096 .bf16) (x5 : Vec F S4096x128 .bf16) (x6 : Vec F S1x128 .f32) :
    out0_7 x0 x1 x2 x3 x4 x5 x6 = View.canon
      [⟨r0_73, stream (View.ld x0 r0_3) x1 x2 x3 x4 x5 x6⟩, ⟨r0_72, stream (View.ld x0 r0_2) x1 x2 x3 x4 x5 x6⟩,
       ⟨r0_71, stream (View.ld x0 r0_1) x1 x2 x3 x4 x5 x6⟩, ⟨r0_70, stream (View.ld x0 r0_0) x1 x2 x3 x4 x5 x6⟩] := by
  unfold out0_7
  rfl

end Cert.KernelIdeal.Streams

end
-- ==== Proof.Net.lean ====
/-
  The network both programs compute, as a function of one row, on the extended reals; and the two forms the kernel's
  arithmetic takes before it is seen to be that function.

  For a row s of the first input and the matching row n of the second:
    enc s  = relu( Σ_k relu( Σ_i s_i · W1[i,k] + b1[k] ) · W2[k,·] + b2 )            (32 numbers)
    out    = Σ_k relu( Σ_i (enc s ‖ enc n)_i · W3[i,k] + b3[k] ) · W4[k,·] + b4        (128 numbers)
  The kernel folds each first-layer bias into its weight matrix as one more row, met by a constant 1 appended to the
  row it multiplies, and it takes the 4096 hidden units in 16 chunks of 256, adding the chunks' contributions to the
  second bias one after another. Over the extended reals these are the same numbers: a sum over 33 (or 65) terms is the
  sum over the first 32 (or 64) plus the last, 1 · b = b, and a sum over 4096 is the sum of its 16 chunk sums; only
  commutativity and associativity of addition are used, so nothing has to be finite.
-/
import Idealize.ShloMosaic.Lib.ValueIdx
import Mathlib.Algebra.BigOperators.Fin

noncomputable section

open scoped BigOperators

namespace Cert.Siamese

open Idealize.ShloMosaic Idealize.ShloMosaic.ValueIdx

/-- A matrix of extended reals, indexed as the programs index a rank-2 array. -/
abbrev Arr2 (a b : Nat) : Type := (⟨2, ![a, b]⟩ : Shape).Idx → EReal
/-- A vector of extended reals, indexed as the programs index a rank-1 array. -/
abbrev Arr1 (a : Nat) : Type := (⟨1, ![a]⟩ : Shape).Idx → EReal

/-- max(x, 0). -/
def relu (x : EReal) : EReal := max x 0

/-- Hidden unit `k` of chunk `c`: unit 256·c + k of the 4096. -/
def chk (c : Fin 16) (k : Fin 256) : Fin 4096 := ⟨256 * c.val + k.val, by have := c.isLt; have := k.isLt; omega⟩

/-- The first two layers on one row. -/
def enc (W1 : Arr2 32 4096) (b1 : Arr1 4096) (W2 : Arr2 4096 32) (b2 : Arr1 32) (s : Fin 32 → EReal) (j : Fin 32) : EReal :=
  relu ((∑ k : Fin 4096, relu ((∑ i : Fin 32, s i * W1 (ix2 i k)) + b1 (ix1 k)) * W2 (ix2 k j)) + b2 (ix1 j))

/-- Two 32-vectors side by side. -/
def pair (a b : Fin 32 → EReal) (i : Fin 64) : EReal :=
  if h : i.val < 32 then a ⟨i.val, h⟩ else b ⟨i.val - 32, by have := i.isLt; omega⟩

/-- The last two layers on one 64-vector. -/
def head (W3 : Arr2 64 4096) (b3 : Arr1 4096) (W4 : Arr2 4096 128) (b4 : Arr1 128) (o : Fin 64 → EReal) (q : Fin 128) : EReal :=
  (∑ k : Fin 4096, relu ((∑ i : Fin 64, o i * W3 (ix2 i k)) + b3 (ix1 k)) * W4 (ix2 k q)) + b4 (ix1 q)

/-- The whole network: output row r, column q, from row r of each input. -/
def G (st nx : Arr2 16384 32) (W1 : Arr2 32 4096) (b1 : Arr1 4096) (W2 : Arr2 4096 32) (b2 : Arr1 32)
    (W3 : Arr2 64 4096) (b3 : Arr1 4096) (W4 : Arr2 4096 128) (b4 : Arr1 128) : Arr2 16384 128 := fun i =>
  head W3 b3 W4 b4
    (pair (enc W1 b1 W2 b2 fun a => st (ix2 (⟨(i 0).val, idx2_lt0 i⟩ : Fin 16384) a))
          (enc W1 b1 W2 b2 fun a => nx (ix2 (⟨(i 0).val, idx2_lt0 i⟩ : Fin 16384) a)))
    ⟨(i 1).val, idx2_lt1 i⟩

/-! ## The kernel's forms -/

/-- The first two layers as the kernel computes them: the bias row inside the 33-row weight matrix, the row `x` carrying
    its constant last entry, the hidden units chunk by chunk, the second bias first. -/
def encK (w1a : Arr2 33 4096) (W2 : Arr2 4096 32) (b2r : Arr2 1 32) (x : Fin 33 → EReal) (j : Fin 32) : EReal :=
  relu (b2r (ix2 0 j) + ∑ c : Fin 16, ∑ k : Fin 256,
    relu (∑ i : Fin 33, x i * w1a (ix2 i (chk c k))) * W2 (ix2 (chk c k) j))

/-- The 65-vector the kernel feeds its third layer: two 32-vectors and a 1. -/
def uRow (a b : Fin 32 → EReal) (i : Fin 65) : EReal :=
  if h : i.val < 32 then a ⟨i.val, h⟩ else if h' : i.val < 64 then b ⟨i.val - 32, by omega⟩ else 1

/-- The last two layers as the kernel computes them. -/
def headK (w3a : Arr2 65 4096) (W4 : Arr2 4096 128) (b4r : Arr2 1 128) (u : Fin 65 → EReal) (q : Fin 128) : EReal :=
  b4r (ix2 0 q) + ∑ c : Fin 16, ∑ k : Fin 256,
    relu (∑ i : Fin 65, u i * w3a (ix2 i (chk c k))) * W4 (ix2 (chk c k) q)

/-! ## They are the network -/

/-- Adding the terms of a list one after another to `a` gives `a` plus their sum. -/
theorem foldl_add_eq {M C : Type*} [AddCommMonoid M] (g : C → M) (l : List C) (a : M) :
    l.foldl (fun acc c => acc + g c) a = a + (l.map g).sum := by
  induction l generalizing a with
  | nil => simp
  | cons c l ih => simp only [List.foldl_cons, List.map_cons, List.sum_cons]; rw [ih, add_assoc]

/-- Adding sixteen terms one after another to `a` gives `a` plus their sum. -/
theorem foldl_sixteen {M : Type*} [AddCommMonoid M] (a : M) (g : Fin 16 → M) :
    List.foldl (fun acc c => acc + g c) a [0, 1, 2, 3, 4, 5, 6, 7, 8, 9, 10, 11, 12, 13, 14, 15] = a + ∑ c : Fin 16, g c := by
  rw [foldl_add_eq, Fin.sum_univ_def]
  rfl

/-- A fold of pointwise additions of vectors, read at one index, is the fold of the additions at that index. -/
theorem foldl_pointwise {I M C : Type*} [Add M] (g : C → I → M) (l : List C) (a : I → M) (i : I) :
    (l.foldl (fun acc c => fun i' => acc i' + g c i') a) i = l.foldl (fun acc c => acc + g c i) (a i) := by
  induction l generalizing a with
  | nil => rfl
  | cons c l ih => simp only [List.foldl_cons]; exact ih _

/-- A sum over the 4096 hidden units is the sum of the 16 chunks' sums. -/
theorem sum_chunks {M : Type*} [AddCommMonoid M] (f : Fin 4096 → M) :
    ∑ c : Fin 16, ∑ k : Fin 256, f (chk c k) = ∑ k : Fin 4096, f k := by
  rw [← Fintype.sum_prod_type']
  refine Fintype.sum_equiv ((finProdFinEquiv (m := 16) (n := 256)).trans (finCongr (by norm_num))) _ _ fun x => ?_
  refine congrArg f (Fin.ext ?_)
  simp only [chk, Equiv.trans_apply, finProdFinEquiv_apply_val, finCongr_apply, Fin.coe_cast]
  omega

theorem encK_eq (w1a : Arr2 33 4096) (W1 : Arr2 32 4096) (b1 : Arr1 4096) (W2 : Arr2 4096 32) (b2r : Arr2 1 32) (b2 : Arr1 32)
    (x : Fin 33 → EReal) (s : Fin 32 → EReal)
    (hw : ∀ (i : Fin 32) (k : Fin 4096), w1a (ix2 (⟨i.val, by omega⟩ : Fin 33) k) = W1 (ix2 i k))
    (hb : ∀ k : Fin 4096, w1a (ix2 (⟨32, by omega⟩ : Fin 33) k) = b1 (ix1 k))
    (hx : ∀ i : Fin 32, x ⟨i.val, by omega⟩ = s i) (hx1 : x ⟨32, by omega⟩ = 1)
    (hb2 : ∀ j : Fin 32, b2r (ix2 0 j) = b2 (ix1 j)) :
    encK w1a W2 b2r x = enc W1 b1 W2 b2 s := by
  funext j
  unfold encK enc
  rw [sum_chunks (fun k => relu (∑ i : Fin 33, x i * w1a (ix2 i k)) * W2 (ix2 k j)), hb2 j, add_comm]
  refine congrArg relu (congrArg (· + b2 (ix1 j)) (Finset.sum_congr rfl fun k _ => ?_))
  refine congrArg (fun z => relu z * W2 (ix2 k j)) ?_
  rw [Fin.sum_univ_castSucc]
  show (∑ i : Fin 32, x ⟨i.val, by omega⟩ * w1a (ix2 (⟨i.val, by omega⟩ : Fin 33) k)) + x ⟨32, by omega⟩ * w1a (ix2 (⟨32, by omega⟩ : Fin 33) k) = _
  simp only [hx, hw, hx1, hb, one_mul]

theorem headK_eq (w3a : Arr2 65 4096) (W3 : Arr2 64 4096) (b3 : Arr1 4096) (W4 : Arr2 4096 128) (b4r : Arr2 1 128) (b4 : Arr1 128)
    (a b : Fin 32 → EReal)
    (hw : ∀ (i : Fin 64) (k : Fin 4096), w3a (ix2 (⟨i.val, by omega⟩ : Fin 65) k) = W3 (ix2 i k))
    (hb : ∀ k : Fin 4096, w3a (ix2 (⟨64, by omega⟩ : Fin 65) k) = b3 (ix1 k))
    (hb4 : ∀ q : Fin 128, b4r (ix2 0 q) = b4 (ix1 q)) :
    headK w3a W4 b4r (uRow a b) = head W3 b3 W4 b4 (pair a b) := by
  funext q
  unfold headK head
  rw [sum_chunks (fun k => relu (∑ i : Fin 65, uRow a b i * w3a (ix2 i k)) * W4 (ix2 k q)), hb4 q, add_comm]
  refine congrArg (· + b4 (ix1 q)) (Finset.sum_congr rfl fun k _ => ?_)
  refine congrArg (fun z => relu z * W4 (ix2 k q)) ?_
  rw [Fin.sum_univ_castSucc]
  show (∑ i : Fin 64, uRow a b ⟨i.val, by omega⟩ * w3a (ix2 (⟨i.val, by omega⟩ : Fin 65) k)) + uRow a b ⟨64, by omega⟩ * w3a (ix2 (⟨64, by omega⟩ : Fin 65) k) = _
  have hu : ∀ i : Fin 64, uRow a b ⟨i.val, by omega⟩ = pair a b i := fun i => by
    unfold uRow pair
    by_cases h : i.val < 32
    · simp only [dif_pos h]
    · have h' : i.val < 64 := i.isLt
      simp only [dif_neg h, dif_pos h']
  have hl : uRow a b ⟨64, by omega⟩ = 1 := by
    unfold uRow
    simp only [show ¬ (64 < 32) by omega, show ¬ (64 < 64) by omega, dif_neg, not_false_eq_true]
  simp only [hu, hw, hl, hb, one_mul]

end Cert.Siamese

end
-- ==== Proof.StreamAcc2.lean ====
/-
  One stream's second-layer pre-activation and the 65-vector built from it, read entry by entry.
-/
import proofs.«140537_g11802570129985_cont_fleet_79_23_alg».proof.Proof.Streams
import proofs.«140537_g11802570129985_cont_fleet_79_23_alg».proof.Proof.Net
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.KernelIdeal.Streams

open Idealize.ShloMosaic Idealize.ShloMosaic.ValueIdx Cert.KernelIdeal Cert.KernelIdeal.Gen Cert.Siamese

/-! ## The chunk loads: chunk `c` of a weight matrix is its columns (rows) `256·c … 256·c + 255` -/

/-- Entry (i, k) of column chunk `c` of W₁ is entry (i, 256·c + k) of W₁. -/
private theorem w1c_apply (x1 : Arr2 33 4096) (c : Fin 16) (i : Fin 33) (k : Fin 256) :
    w1c (F := Ideal) x1 c (ix2 i k) = x1 (ix2 i (chk c k)) := by
  fin_cases c <;>
  · show x1 _ = x1 _
    congr 1
    funext a
    refine Fin.ext ?_
    match a with
    | ⟨0, _⟩ => simp [chk]
    | ⟨1, _⟩ => simp [chk]

/-- Entry (k, j) of row chunk `c` of W₂ is entry (256·c + k, j) of W₂. -/
private theorem w2c_apply (x2 : Arr2 4096 32) (c : Fin 16) (k : Fin 256) (j : Fin 32) :
    w2c (F := Ideal) x2 c (ix2 k j) = x2 (ix2 (chk c k) j) := by
  fin_cases c <;>
  · show x2 _ = x2 _
    congr 1
    funext a
    refine Fin.ext ?_
    match a with
    | ⟨0, _⟩ => simp [chk]
    | ⟨1, _⟩ => simp [chk]

/-! ## The two products of a chunk, entry by entry

For a plain rows × contraction times contraction × columns product, the left operand's index at output (r, c) and
contraction coordinate q is (r, q) and the right operand's is (q, c). -/

private theorem lhsA_0 (i : S1024x256.Idx) (q : dot_S1024x33_S33x256_S1024x256_1_0_0_1_n_n.contr.Idx) :
    (dot_S1024x33_S33x256_S1024x256_1_0_0_1_n_n.lhsIdx i q 0).val = (i 0).val := by
  unfold DotDims.lhsIdx
  rw [dif_neg (show ¬(0 : Fin S1024x33.rank) ∈ dot_S1024x33_S33x256_S1024x256_1_0_0_1_n_n.lhsBatch by decide), dif_pos (show (0 : Fin S1024x33.rank) ∈ dot_S1024x33_S33x256_S1024x256_1_0_0_1_n_n.lhsNonContracting by decide)]
  rfl
private theorem lhsA_1 (i : S1024x256.Idx) (q : dot_S1024x33_S33x256_S1024x256_1_0_0_1_n_n.contr.Idx) :
    (dot_S1024x33_S33x256_S1024x256_1_0_0_1_n_n.lhsIdx i q 1).val = (q ⟨0, by decide⟩).val :=
  dot_S1024x33_S33x256_S1024x256_1_0_0_1_n_n.lhsIdx_val_of_single rfl i q
private theorem rhsA_0 (i : S1024x256.Idx) (q : dot_S1024x33_S33x256_S1024x256_1_0_0_1_n_n.contr.Idx) :
    (dot_S1024x33_S33x256_S1024x256_1_0_0_1_n_n.rhsIdx i q 0).val = (q ⟨0, by decide⟩).val :=
  dot_S1024x33_S33x256_S1024x256_1_0_0_1_n_n.rhsIdx_val_of_single rfl i q
private theorem rhsA_1 (i : S1024x256.Idx) (q : dot_S1024x33_S33x256_S1024x256_1_0_0_1_n_n.contr.Idx) :
    (dot_S1024x33_S33x256_S1024x256_1_0_0_1_n_n.rhsIdx i q 1).val = (i 1).val := by
  unfold DotDims.rhsIdx
  rw [dif_neg (show ¬(1 : Fin S33x256.rank) ∈ dot_S1024x33_S33x256_S1024x256_1_0_0_1_n_n.rhsBatch by decide), dif_pos (show (1 : Fin S33x256.rank) ∈ dot_S1024x33_S33x256_S1024x256_1_0_0_1_n_n.rhsNonContracting by decide)]
  rfl

private theorem lhsB_0 (i : S1024x32.Idx) (q : dot_S1024x256_S256x32_S1024x32_1_0_0_1_n_n.contr.Idx) :
    (dot_S1024x256_S256x32_S1024x32_1_0_0_1_n_n.lhsIdx i q 0).val = (i 0).val := by
  unfold DotDims.lhsIdx
  rw [dif_neg (show ¬(0 : Fin S1024x256.rank) ∈ dot_S1024x256_S256x32_S1024x32_1_0_0_1_n_n.lhsBatch by decide), dif_pos (show (0 : Fin S1024x256.rank) ∈ dot_S1024x256_S256x32_S1024x32_1_0_0_1_n_n.lhsNonContracting by decide)]
  rfl
private theorem lhsB_1 (i : S1024x32.Idx) (q : dot_S1024x256_S256x32_S1024x32_1_0_0_1_n_n.contr.Idx) :
    (dot_S1024x256_S256x32_S1024x32_1_0_0_1_n_n.lhsIdx i q 1).val = (q ⟨0, by decide⟩).val :=
  dot_S1024x256_S256x32_S1024x32_1_0_0_1_n_n.lhsIdx_val_of_single rfl i q
private theorem rhsB_0 (i : S1024x32.Idx) (q : dot_S1024x256_S256x32_S1024x32_1_0_0_1_n_n.contr.Idx) :
    (dot_S1024x256_S256x32_S1024x32_1_0_0_1_n_n.rhsIdx i q 0).val = (q ⟨0, by decide⟩).val :=
  dot_S1024x256_S256x32_S1024x32_1_0_0_1_n_n.rhsIdx_val_of_single rfl i q
private theorem rhsB_1 (i : S1024x32.Idx) (q : dot_S1024x256_S256x32_S1024x32_1_0_0_1_n_n.contr.Idx) :
    (dot_S1024x256_S256x32_S1024x32_1_0_0_1_n_n.rhsIdx i q 1).val = (i 1).val := by
  unfold DotDims.rhsIdx
  rw [dif_neg (show ¬(1 : Fin S256x32.rank) ∈ dot_S1024x256_S256x32_S1024x32_1_0_0_1_n_n.rhsBatch by decide), dif_pos (show (1 : Fin S256x32.rank) ∈ dot_S1024x256_S256x32_S1024x32_1_0_0_1_n_n.rhsNonContracting by decide)]
  rfl

/-- Entry (r, k) of relu(x · W₁ᶜ): the positive part of row r of x against column k of the chunk. -/
private theorem hid1_apply (X : Arr2 1024 33) (w : Arr2 33 256) (r : Fin 1024) (k : Fin 256) :
    hid1 (F := Ideal) X w (ix2 r k) = relu (∑ i : Fin 33, X (ix2 r i) * w (ix2 i k)) := by
  unfold hid1 relu
  rw [maximumf_apply, truncf_apply, broadcast_apply]
  simp only [matmul]
  rw [Ideal.matmul_constant_zero_apply, shapeCast_self,
    ← Equiv.sum_comp (contrEquiv1 dot_S1024x33_S33x256_S1024x256_1_0_0_1_n_n 33 rfl rfl).symm]
  have h0 : (FloatOps.ofBits FTy.bf16 0#16 : Ideal .bf16) = 0 := Ideal.ofBits_zero_bf16
  rw [h0]
  congr 1
  refine Finset.sum_congr rfl fun i _ => ?_
  have hk := contrEquiv1_symm_val dot_S1024x33_S33x256_S1024x256_1_0_0_1_n_n 33 rfl rfl i
  have el : dot_S1024x33_S33x256_S1024x256_1_0_0_1_n_n.lhsIdx (ix2 r k) ((contrEquiv1 dot_S1024x33_S33x256_S1024x256_1_0_0_1_n_n 33 rfl rfl).symm i) = ix2 r i := funext fun a => Fin.ext (by
    match a with
    | ⟨0, _⟩ => exact lhsA_0 _ _
    | ⟨1, _⟩ => exact (lhsA_1 _ _).trans hk)
  have er : dot_S1024x33_S33x256_S1024x256_1_0_0_1_n_n.rhsIdx (ix2 r k) ((contrEquiv1 dot_S1024x33_S33x256_S1024x256_1_0_0_1_n_n 33 rfl rfl).symm i) = ix2 i k := funext fun a => Fin.ext (by
    match a with
    | ⟨0, _⟩ => exact (rhsA_0 _ _).trans hk
    | ⟨1, _⟩ => exact rhsA_1 _ _)
  rw [el, er]

/-- Entry (r, j) of h · W₂ᶜ: row r of h against column j of the chunk. -/
private theorem mm2_apply (h : Arr2 1024 256) (w : Arr2 256 32) (r : Fin 1024) (j : Fin 32) :
    mm2 (F := Ideal) h w (ix2 r j) = ∑ k : Fin 256, h (ix2 r k) * w (ix2 k j) := by
  unfold mm2
  simp only [matmul]
  rw [Ideal.matmul_constant_zero_apply, shapeCast_self,
    ← Equiv.sum_comp (contrEquiv1 dot_S1024x256_S256x32_S1024x32_1_0_0_1_n_n 256 rfl rfl).symm]
  refine Finset.sum_congr rfl fun k _ => ?_
  have hk := contrEquiv1_symm_val dot_S1024x256_S256x32_S1024x32_1_0_0_1_n_n 256 rfl rfl k
  have el : dot_S1024x256_S256x32_S1024x32_1_0_0_1_n_n.lhsIdx (ix2 r j) ((contrEquiv1 dot_S1024x256_S256x32_S1024x32_1_0_0_1_n_n 256 rfl rfl).symm k) = ix2 r k := funext fun a => Fin.ext (by
    match a with
    | ⟨0, _⟩ => exact lhsB_0 _ _
    | ⟨1, _⟩ => exact (lhsB_1 _ _).trans hk)
  have er : dot_S1024x256_S256x32_S1024x32_1_0_0_1_n_n.rhsIdx (ix2 r j) ((contrEquiv1 dot_S1024x256_S256x32_S1024x32_1_0_0_1_n_n 256 rfl rfl).symm k) = ix2 k j := funext fun a => Fin.ext (by
    match a with
    | ⟨0, _⟩ => exact (rhsB_0 _ _).trans hk
    | ⟨1, _⟩ => exact rhsB_1 _ _)
  rw [el, er]

/-- The value the accumulation starts from: the bias row b₂ repeated down the 1024 rows. -/
private theorem init2_apply (x3 : Vec Ideal S1x32 .f32) (r : Fin 1024) (j : Fin 32) :
    broadcastTo S1024x32 (shapeCast S1x32 (View.ld x3 r0_4) shapeCasts_S1x32_S1x32) broadcasts_S1x32_S1024x32 (ix2 r j)
      = x3 (ix2 0 j) := by
  have e : shapeCast S1x32 (View.ld x3 r0_4) shapeCasts_S1x32_S1x32 = View.ld x3 r0_4 :=
    shapeCast_self (s := S1x32) _ _
  rw [e]
  refine (broadcastTo_apply _ broadcasts_S1x32_S1024x32 (ix2 r j) (ix2 0 j) (fun a => ?_)).trans ?_
  · match a with
    | ⟨0, _⟩ => show 0 = if (1 : Nat) = 1 then 0 else r.val; rw [if_pos rfl]
    | ⟨1, _⟩ => show j.val = if (32 : Nat) = 1 then 0 else j.val; rw [if_neg (by decide)]
  · show x3 _ = x3 _
    congr 1
    funext a
    refine Fin.ext ?_
    match a with
    | ⟨0, _⟩ => simp
    | ⟨1, _⟩ => simp

/-- Entry (r, j) of a₂: the bias, then the sixteen chunks' contributions. -/
theorem acc2_apply (X : Arr2 1024 33) (x1 : Arr2 33 4096) (x2 : Arr2 4096 32) (x3 : Arr2 1 32) (r : Fin 1024) (j : Fin 32) :
    acc2 (F := Ideal) X x1 x2 x3 (ix2 r j)
      = x3 (ix2 0 j) + ∑ c : Fin 16, ∑ k : Fin 256,
          relu (∑ i : Fin 33, X (ix2 r i) * x1 (ix2 i (chk c k))) * x2 (ix2 (chk c k) j) := by
  -- an accumulation of entrywise sums, read at one entry, is the starting entry plus the sum of the sixteen terms there
  unfold acc2
  refine (foldl_pointwise (fun c i' => mm2 (F := Ideal) (hid1 X (w1c x1 c)) (w2c x2 c) i') chunks _ (ix2 r j)).trans ?_
  unfold chunks
  rw [foldl_sixteen, init2_apply]
  congr 1
  refine Finset.sum_congr rfl fun c _ => ?_
  rw [mm2_apply]
  refine Finset.sum_congr rfl fun k _ => ?_
  rw [hid1_apply, w2c_apply]
  congr 2
  refine Finset.sum_congr rfl fun i _ => ?_
  rw [w1c_apply]

/-- Entry (p, i) of u: relu a₂ at row p for the first 32 columns, at row p + 512 for the next 32, then 1. -/
theorem mkU_apply (a : Arr2 1024 32) (p : Fin 512) (i : Fin 65) :
    mkU (F := Ideal) a (ix2 p i)
      = uRow (fun j => relu (a (ix2 (⟨p.val, by have := p.isLt; omega⟩ : Fin 1024) j)))
             (fun j => relu (a (ix2 (⟨p.val + 512, by have := p.isLt; omega⟩ : Fin 1024) j))) i := by
  -- the 65 columns are three pieces side by side: columns 0..31, columns 32..63, and column 64
  have hp := p.isLt
  have hi := i.isLt
  unfold mkU uRow
  rw [truncf_apply]
  split
  · next h =>
    refine (concatenate_apply_piece (1 : Fin S512x65.rank) _ _ (ix2 p i)
      0 (by simp) S512x32 _ rfl rfl 0 rfl (ix2 p (⟨i.val, h⟩ : Fin 32)) (fun b hb => ?_) ?_).trans ?_
    · match b with
      | ⟨0, _⟩ => rfl
      | ⟨1, _⟩ => exact absurd rfl hb
    · show 0 + i.val = i.val
      omega
    · refine (extractStridedSlice_apply _ _ slices_S1024x32_o0_0_S512x32 (ix2 p (⟨i.val, h⟩ : Fin 32))
        (ix2 (⟨p.val, by omega⟩ : Fin 1024) (⟨i.val, h⟩ : Fin 32)) (fun b => ?_)).trans ?_
      · match b with
        | ⟨0, _⟩ => show p.val = 0 + p.val; omega
        | ⟨1, _⟩ => show i.val = 0 + i.val; omega
      · rw [maximumf_apply, broadcast_apply]
        show max _ (Ideal.ofBits .f32 0x00000000#32) = max _ 0
        rw [Ideal.ofBits_zero_f32]
  · next h =>
    split
    · next h' =>
      refine (concatenate_apply_piece (1 : Fin S512x65.rank) _ _ (ix2 p i)
        1 (by simp) S512x32 _ rfl rfl 32 rfl (ix2 p (⟨i.val - 32, by omega⟩ : Fin 32)) (fun b hb => ?_) ?_).trans ?_
      · match b with
        | ⟨0, _⟩ => rfl
        | ⟨1, _⟩ => exact absurd rfl hb
      · show 32 + (i.val - 32) = i.val
        omega
      · refine (extractStridedSlice_apply _ _ slices_S1024x32_o512_0_S512x32 (ix2 p (⟨i.val - 32, by omega⟩ : Fin 32))
          (ix2 (⟨p.val + 512, by omega⟩ : Fin 1024) (⟨i.val - 32, by omega⟩ : Fin 32)) (fun b => ?_)).trans ?_
        · match b with
          | ⟨0, _⟩ => show p.val + 512 = 512 + p.val; omega
          | ⟨1, _⟩ => show i.val - 32 = 0 + (i.val - 32); omega
        · rw [maximumf_apply, broadcast_apply]
          show max _ (Ideal.ofBits .f32 0x00000000#32) = max _ 0
          rw [Ideal.ofBits_zero_f32]
    · next h' =>
      refine (concatenate_apply_piece (1 : Fin S512x65.rank) _ _ (ix2 p i)
        2 (by simp) S512x1 _ rfl rfl 64 rfl (ix2 p (0 : Fin 1)) (fun b hb => ?_) ?_).trans ?_
      · match b with
        | ⟨0, _⟩ => rfl
        | ⟨1, _⟩ => exact absurd rfl hb
      · show 64 + 0 = i.val
        omega
      · rw [broadcast_apply]
        exact Ideal.ofBits_one_f32

end Cert.KernelIdeal.Streams

end
-- ==== Proof.StreamAcc4.lean ====
/-
  One stream's output rows, read entry by entry.
-/
import proofs.«140537_g11802570129985_cont_fleet_79_23_alg».proof.Proof.Streams
import proofs.«140537_g11802570129985_cont_fleet_79_23_alg».proof.Proof.Net
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.KernelIdeal.Streams

open Idealize.ShloMosaic Idealize.ShloMosaic.ValueIdx Cert.KernelIdeal Cert.KernelIdeal.Gen Cert.Siamese

/-! The 512×256 by 256×128 product: its operands' indices at output index i and contraction index q, axis by axis. -/

private theorem lhs4_0 (i : S512x128.Idx) (q : dot_S512x256_S256x128_S512x128_1_0_0_1_n_n.contr.Idx) :
    (dot_S512x256_S256x128_S512x128_1_0_0_1_n_n.lhsIdx i q 0).val = (i 0).val := by
  unfold DotDims.lhsIdx
  rw [dif_neg (show ¬(0 : Fin S512x256.rank) ∈ dot_S512x256_S256x128_S512x128_1_0_0_1_n_n.lhsBatch by decide), dif_pos (show (0 : Fin S512x256.rank) ∈ dot_S512x256_S256x128_S512x128_1_0_0_1_n_n.lhsNonContracting by decide)]
  rfl
private theorem lhs4_1 (i : S512x128.Idx) (q : dot_S512x256_S256x128_S512x128_1_0_0_1_n_n.contr.Idx) :
    (dot_S512x256_S256x128_S512x128_1_0_0_1_n_n.lhsIdx i q 1).val = (q ⟨0, by decide⟩).val :=
  dot_S512x256_S256x128_S512x128_1_0_0_1_n_n.lhsIdx_val_of_single rfl i q
private theorem rhs4_0 (i : S512x128.Idx) (q : dot_S512x256_S256x128_S512x128_1_0_0_1_n_n.contr.Idx) :
    (dot_S512x256_S256x128_S512x128_1_0_0_1_n_n.rhsIdx i q 0).val = (q ⟨0, by decide⟩).val :=
  dot_S512x256_S256x128_S512x128_1_0_0_1_n_n.rhsIdx_val_of_single rfl i q
private theorem rhs4_1 (i : S512x128.Idx) (q : dot_S512x256_S256x128_S512x128_1_0_0_1_n_n.contr.Idx) :
    (dot_S512x256_S256x128_S512x128_1_0_0_1_n_n.rhsIdx i q 1).val = (i 1).val := by
  unfold DotDims.rhsIdx
  rw [dif_neg (show ¬(1 : Fin S256x128.rank) ∈ dot_S512x256_S256x128_S512x128_1_0_0_1_n_n.rhsBatch by decide), dif_pos (show (1 : Fin S256x128.rank) ∈ dot_S512x256_S256x128_S512x128_1_0_0_1_n_n.rhsNonContracting by decide)]
  rfl

/-- One chunk's product, entry (p, q): the sum over the chunk's 256 hidden units. -/
private theorem mm4_apply (h : Arr2 512 256) (w : Arr2 256 128) (p : Fin 512) (q : Fin 128) :
    mm4 (F := Ideal) h w (ix2 p q) = ∑ k : Fin 256, h (ix2 p k) * w (ix2 k q) := by
  unfold mm4
  rw [shapeCast_self]
  simp only [matmul]
  rw [Ideal.matmul_constant_zero_apply, ← Equiv.sum_comp (contrEquiv1 dot_S512x256_S256x128_S512x128_1_0_0_1_n_n 256 rfl rfl).symm]
  refine Finset.sum_congr rfl fun k _ => ?_
  have hk := contrEquiv1_symm_val dot_S512x256_S256x128_S512x128_1_0_0_1_n_n 256 rfl rfl k
  have el : dot_S512x256_S256x128_S512x128_1_0_0_1_n_n.lhsIdx (ix2 p q) ((contrEquiv1 dot_S512x256_S256x128_S512x128_1_0_0_1_n_n 256 rfl rfl).symm k) = ix2 p k := funext fun a => Fin.ext (by
    match a with
    | ⟨0, _⟩ => exact lhs4_0 _ _
    | ⟨1, _⟩ => exact (lhs4_1 _ _).trans hk)
  have er : dot_S512x256_S256x128_S512x128_1_0_0_1_n_n.rhsIdx (ix2 p q) ((contrEquiv1 dot_S512x256_S256x128_S512x128_1_0_0_1_n_n 256 rfl rfl).symm k) = ix2 k q := funext fun a => Fin.ext (by
    match a with
    | ⟨0, _⟩ => exact (rhs4_0 _ _).trans hk
    | ⟨1, _⟩ => exact rhs4_1 _ _)
  rw [el, er]

/-! The 512×65 by 65×256 product: its operands' indices at output index i and contraction index q, axis by axis. -/

private theorem lhs3_0 (i : S512x256.Idx) (q : dot_S512x65_S65x256_S512x256_1_0_0_1_n_n.contr.Idx) :
    (dot_S512x65_S65x256_S512x256_1_0_0_1_n_n.lhsIdx i q 0).val = (i 0).val := by
  unfold DotDims.lhsIdx
  rw [dif_neg (show ¬(0 : Fin S512x65.rank) ∈ dot_S512x65_S65x256_S512x256_1_0_0_1_n_n.lhsBatch by decide), dif_pos (show (0 : Fin S512x65.rank) ∈ dot_S512x65_S65x256_S512x256_1_0_0_1_n_n.lhsNonContracting by decide)]
  rfl
private theorem lhs3_1 (i : S512x256.Idx) (q : dot_S512x65_S65x256_S512x256_1_0_0_1_n_n.contr.Idx) :
    (dot_S512x65_S65x256_S512x256_1_0_0_1_n_n.lhsIdx i q 1).val = (q ⟨0, by decide⟩).val :=
  dot_S512x65_S65x256_S512x256_1_0_0_1_n_n.lhsIdx_val_of_single rfl i q
private theorem rhs3_0 (i : S512x256.Idx) (q : dot_S512x65_S65x256_S512x256_1_0_0_1_n_n.contr.Idx) :
    (dot_S512x65_S65x256_S512x256_1_0_0_1_n_n.rhsIdx i q 0).val = (q ⟨0, by decide⟩).val :=
  dot_S512x65_S65x256_S512x256_1_0_0_1_n_n.rhsIdx_val_of_single rfl i q
private theorem rhs3_1 (i : S512x256.Idx) (q : dot_S512x65_S65x256_S512x256_1_0_0_1_n_n.contr.Idx) :
    (dot_S512x65_S65x256_S512x256_1_0_0_1_n_n.rhsIdx i q 1).val = (i 1).val := by
  unfold DotDims.rhsIdx
  rw [dif_neg (show ¬(1 : Fin S65x256.rank) ∈ dot_S512x65_S65x256_S512x256_1_0_0_1_n_n.rhsBatch by decide), dif_pos (show (1 : Fin S65x256.rank) ∈ dot_S512x65_S65x256_S512x256_1_0_0_1_n_n.rhsNonContracting by decide)]
  rfl

/-- One chunk's hidden units, entry (p, k): relu of row p of u against column k of the chunk's weights. -/
private theorem hid3_apply (u : Arr2 512 65) (w : Arr2 65 256) (p : Fin 512) (k : Fin 256) :
    hid3 (F := Ideal) u w (ix2 p k) = relu (∑ i : Fin 65, u (ix2 p i) * w (ix2 i k)) := by
  unfold hid3
  rw [shapeCast_self, maximumf_apply, truncf_apply, broadcast_apply]
  simp only [matmul]
  rw [Ideal.matmul_constant_zero_apply, ← Equiv.sum_comp (contrEquiv1 dot_S512x65_S65x256_S512x256_1_0_0_1_n_n 65 rfl rfl).symm]
  show max _ (Ideal.ofBits .bf16 0x0000#16) = _
  rw [Ideal.ofBits_zero_bf16]
  unfold relu
  refine congrArg (fun t => max t 0) (Finset.sum_congr rfl fun i _ => ?_)
  have hk := contrEquiv1_symm_val dot_S512x65_S65x256_S512x256_1_0_0_1_n_n 65 rfl rfl i
  have el : dot_S512x65_S65x256_S512x256_1_0_0_1_n_n.lhsIdx (ix2 p k) ((contrEquiv1 dot_S512x65_S65x256_S512x256_1_0_0_1_n_n 65 rfl rfl).symm i) = ix2 p i := funext fun a => Fin.ext (by
    match a with
    | ⟨0, _⟩ => exact lhs3_0 _ _
    | ⟨1, _⟩ => exact (lhs3_1 _ _).trans hk)
  have er : dot_S512x65_S65x256_S512x256_1_0_0_1_n_n.rhsIdx (ix2 p k) ((contrEquiv1 dot_S512x65_S65x256_S512x256_1_0_0_1_n_n 65 rfl rfl).symm i) = ix2 i k := funext fun a => Fin.ext (by
    match a with
    | ⟨0, _⟩ => exact (rhs3_0 _ _).trans hk
    | ⟨1, _⟩ => exact rhs3_1 _ _)
  rw [el, er]

/-- A block of 256 columns starting at column o, read at (i, k): column o + k of the whole. -/
private theorem ld_cols (x4 : Vec Ideal S65x4096 .bf16) (o : Nat) (inb : ∀ a, (![0, o] : Fin 2 → Nat) a + S65x256.size a ≤ S65x4096.size a)
    (i : Fin 65) (k : Fin 256) (j : Fin 4096) (hj : j.val = o + k.val) :
    View.ld x4 (Rect.unit (s := S65x4096) ![0, o] S65x256.size inb) (ix2 i k) = x4 (ix2 i j) := by
  refine congrArg x4 (funext fun a => Fin.ext ?_)
  match a with
  | ⟨0, _⟩ => show 0 + 1 * i.val = i.val; omega
  | ⟨1, _⟩ => show o + 1 * k.val = j.val; omega

/-- A block of 256 rows starting at row o, read at (k, q): row o + k of the whole. -/
private theorem ld_rows (x5 : Vec Ideal S4096x128 .bf16) (o : Nat) (inb : ∀ a, (![o, 0] : Fin 2 → Nat) a + S256x128.size a ≤ S4096x128.size a)
    (k : Fin 256) (q : Fin 128) (j : Fin 4096) (hj : j.val = o + k.val) :
    View.ld x5 (Rect.unit (s := S4096x128) ![o, 0] S256x128.size inb) (ix2 k q) = x5 (ix2 j q) := by
  refine congrArg x5 (funext fun a => Fin.ext ?_)
  match a with
  | ⟨0, _⟩ => show o + 1 * k.val = j.val; omega
  | ⟨1, _⟩ => show 0 + 1 * q.val = q.val; omega

/-- Chunk c of the third layer's weights holds columns 256c .. 256c+255. -/
private theorem w3c_apply (x4 : Vec Ideal S65x4096 .bf16) (c : Fin 16) (i : Fin 65) (k : Fin 256) :
    w3c (F := Ideal) x4 c (ix2 i k) = x4 (ix2 i (chk c k)) := by
  match c with
  | ⟨0, _⟩ => exact ld_cols _ _ _ _ _ _ rfl
  | ⟨1, _⟩ => exact ld_cols _ _ _ _ _ _ rfl
  | ⟨2, _⟩ => exact ld_cols _ _ _ _ _ _ rfl
  | ⟨3, _⟩ => exact ld_cols _ _ _ _ _ _ rfl
  | ⟨4, _⟩ => exact ld_cols _ _ _ _ _ _ rfl
  | ⟨5, _⟩ => exact ld_cols _ _ _ _ _ _ rfl
  | ⟨6, _⟩ => exact ld_cols _ _ _ _ _ _ rfl
  | ⟨7, _⟩ => exact ld_cols _ _ _ _ _ _ rfl
  | ⟨8, _⟩ => exact ld_cols _ _ _ _ _ _ rfl
  | ⟨9, _⟩ => exact ld_cols _ _ _ _ _ _ rfl
  | ⟨10, _⟩ => exact ld_cols _ _ _ _ _ _ rfl
  | ⟨11, _⟩ => exact ld_cols _ _ _ _ _ _ rfl
  | ⟨12, _⟩ => exact ld_cols _ _ _ _ _ _ rfl
  | ⟨13, _⟩ => exact ld_cols _ _ _ _ _ _ rfl
  | ⟨14, _⟩ => exact ld_cols _ _ _ _ _ _ rfl
  | ⟨15, _⟩ => exact ld_cols _ _ _ _ _ _ rfl
  | ⟨n + 16, h⟩ => exact absurd h (by omega)

/-- Chunk c of the fourth layer's weights holds rows 256c .. 256c+255. -/
private theorem w4c_apply (x5 : Vec Ideal S4096x128 .bf16) (c : Fin 16) (k : Fin 256) (q : Fin 128) :
    w4c (F := Ideal) x5 c (ix2 k q) = x5 (ix2 (chk c k) q) := by
  match c with
  | ⟨0, _⟩ => exact ld_rows _ _ _ _ _ _ rfl
  | ⟨1, _⟩ => exact ld_rows _ _ _ _ _ _ rfl
  | ⟨2, _⟩ => exact ld_rows _ _ _ _ _ _ rfl
  | ⟨3, _⟩ => exact ld_rows _ _ _ _ _ _ rfl
  | ⟨4, _⟩ => exact ld_rows _ _ _ _ _ _ rfl
  | ⟨5, _⟩ => exact ld_rows _ _ _ _ _ _ rfl
  | ⟨6, _⟩ => exact ld_rows _ _ _ _ _ _ rfl
  | ⟨7, _⟩ => exact ld_rows _ _ _ _ _ _ rfl
  | ⟨8, _⟩ => exact ld_rows _ _ _ _ _ _ rfl
  | ⟨9, _⟩ => exact ld_rows _ _ _ _ _ _ rfl
  | ⟨10, _⟩ => exact ld_rows _ _ _ _ _ _ rfl
  | ⟨11, _⟩ => exact ld_rows _ _ _ _ _ _ rfl
  | ⟨12, _⟩ => exact ld_rows _ _ _ _ _ _ rfl
  | ⟨13, _⟩ => exact ld_rows _ _ _ _ _ _ rfl
  | ⟨14, _⟩ => exact ld_rows _ _ _ _ _ _ rfl
  | ⟨15, _⟩ => exact ld_rows _ _ _ _ _ _ rfl
  | ⟨n + 16, h⟩ => exact absurd h (by omega)

/-- The accumulator starts as the bias row, repeated down the 512 rows. -/
private theorem init_apply (x6 : Vec Ideal S1x128 .f32) (p : Fin 512) (q : Fin 128) :
    broadcastTo S512x128 (shapeCast S1x128 (View.ld x6 r0_37) shapeCasts_S1x128_S1x128) broadcasts_S1x128_S512x128 (ix2 p q)
      = x6 (ix2 0 q) := by
  have e : shapeCast S1x128 (View.ld x6 r0_37) shapeCasts_S1x128_S1x128 = View.ld x6 r0_37 :=
    shapeCast_self (s := S1x128) (View.ld x6 r0_37) shapeCasts_S1x128_S1x128
  rw [e, broadcastTo_apply _ broadcasts_S1x128_S512x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else _; rw [if_neg (by decide)]; rfl)]
  refine congrArg x6 (funext fun a => Fin.ext ?_)
  match a with
  | ⟨0, _⟩ => rfl
  | ⟨1, _⟩ => show 0 + 1 * q.val = q.val; omega

/-- Entry (p, q) of a₄: the bias, then the sixteen chunks' contributions, of row p of u. -/
theorem acc4_apply (u : Arr2 512 65) (x4 : Arr2 65 4096) (x5 : Arr2 4096 128) (x6 : Arr2 1 128) (p : Fin 512) (q : Fin 128) :
    acc4 (F := Ideal) u x4 x5 x6 (ix2 p q) = headK x4 x5 x6 (fun i => u (ix2 p i)) q := by
  unfold acc4 headK
  -- the fold of pointwise additions, read at (p, q), is the fold of the additions of the entries at (p, q)
  refine (foldl_pointwise (fun c => mm4 (F := Ideal) (hid3 u (w3c x4 c)) (w4c x5 c)) chunks _ (ix2 p q)).trans ?_
  unfold chunks
  rw [foldl_sixteen, init_apply]
  refine congrArg (x6 (ix2 0 q) + ·) (Finset.sum_congr rfl fun c _ => ?_)
  rw [mm4_apply]
  refine Finset.sum_congr rfl fun k _ => ?_
  rw [hid3_apply, w4c_apply]
  simp only [w3c_apply]

end Cert.KernelIdeal.Streams

end
-- ==== Proof.StreamValue.lean ====
/-
  One stream of the kernel body, read entry by entry: row p of its output is the last two layers of the 65-vector made
  of the first two layers of rows p and p + 512 of its input.
-/
import proofs.«140537_g11802570129985_cont_fleet_79_23_alg».proof.Proof.StreamAcc2
import proofs.«140537_g11802570129985_cont_fleet_79_23_alg».proof.Proof.StreamAcc4

noncomputable section

open scoped BigOperators

namespace Cert.KernelIdeal.Streams

open Idealize.ShloMosaic Idealize.ShloMosaic.ValueIdx Cert.KernelIdeal Cert.KernelIdeal.Gen Cert.Siamese

/-- Entry (p, q) of a stream's result. -/
theorem stream_apply (X : Arr2 1024 33) (x1 : Arr2 33 4096) (x2 : Arr2 4096 32) (x3 : Arr2 1 32)
    (x4 : Arr2 65 4096) (x5 : Arr2 4096 128) (x6 : Arr2 1 128) (p : Fin 512) (q : Fin 128) :
    stream (F := Ideal) X x1 x2 x3 x4 x5 x6 (ix2 p q)
      = headK x4 x5 x6
          (uRow (encK x1 x2 x3 fun i => X (ix2 (⟨p.val, by have := p.isLt; omega⟩ : Fin 1024) i))
                (encK x1 x2 x3 fun i => X (ix2 (⟨p.val + 512, by have := p.isLt; omega⟩ : Fin 1024) i))) q := by
  unfold stream
  rw [acc4_apply]
  refine congrArg (fun u => headK x4 x5 x6 u q) (funext fun i => ?_)
  rw [mkU_apply, Idealize.ShloMosaic.shapeCast_self]
  refine congrArg₂ (fun a b => uRow a b i) (funext fun j => ?_) (funext fun j => ?_)
  · rw [acc2_apply]; rfl
  · rw [acc2_apply]; rfl

end Cert.KernelIdeal.Streams

end
-- ==== Proof.HostBlocks.lean ====
/-
  What the kernel's input windows hold at a grid point, in terms of the program's arguments.

  Before the launch the program builds, from the two inputs s and n (16384 × 32 each):
    x_all (32768 × 33): s and n each with a column of ones appended, cut into groups of 512 rows and interleaved, so
      that rows 1024·g .. 1024·g+511 are rows 512·g .. of s and rows 1024·g+512 .. 1024·g+1023 the same rows of n;
    W1 with b1 appended as row 32 (33 × 4096); W3 with b3 appended as row 64 (65 × 4096);
    b2 and b4 as one-row matrices; W2 and W4 unchanged (a change of float format is the identity here).
  Grid point t sees rows 4096·t .. 4096·t+4095 of x_all and the other six arrays whole.
-/
import proofs.«140537_g11802570129985_cont_fleet_79_23_alg».proof.Proof.Gen.KernelIdeal.Frame
import proofs.«140537_g11802570129985_cont_fleet_79_23_alg».proof.Proof.Net
import Idealize.ShloMosaic.Lib.ValueIdx
import Idealize.ShloMosaic.Lib.Pipeline.Value
import Idealize.ShloMosaic.Lib.ValueLayout
import Idealize.ShloMosaic.Lib.StableHlo.Run
import Idealize.ShloMosaic.Lib.IdealHost

noncomputable section

open scoped BigOperators

namespace Cert.KernelIdeal.HostBlocks

open Idealize.ShloMosaic Idealize.ShloMosaic.TcCoe Idealize.ShloMosaic.ValueIdx Idealize.SL.Sem Cert.KernelIdeal Cert.KernelIdeal.Gen Cert.Siamese

variable (m : (ℓ : Loc nD τ sig) → Buf (Elt Ideal) ℓ)

/-- The ten arguments on core `c`. -/
abbrev a0 (c : Dev nD) : Arr2 16384 32 := m ((c : Thread nD τ).loc main_arg0)
abbrev a1 (c : Dev nD) : Arr2 16384 32 := m ((c : Thread nD τ).loc main_arg1)
abbrev a2 (c : Dev nD) : Arr2 32 4096 := m ((c : Thread nD τ).loc main_arg2)
abbrev a3 (c : Dev nD) : Arr1 4096 := m ((c : Thread nD τ).loc main_arg3)
abbrev a4 (c : Dev nD) : Arr2 4096 32 := m ((c : Thread nD τ).loc main_arg4)
abbrev a5 (c : Dev nD) : Arr1 32 := m ((c : Thread nD τ).loc main_arg5)
abbrev a6 (c : Dev nD) : Arr2 64 4096 := m ((c : Thread nD τ).loc main_arg6)
abbrev a7 (c : Dev nD) : Arr1 4096 := m ((c : Thread nD τ).loc main_arg7)
abbrev a8 (c : Dev nD) : Arr2 4096 128 := m ((c : Thread nD τ).loc main_arg8)
abbrev a9 (c : Dev nD) : Arr1 128 := m ((c : Thread nD τ).loc main_arg9)

/-- The seven input windows' blocks at point `t`, at their literal types. -/
abbrev b0 (c : Dev nD) (t : Fin cfg0.N) : Arr2 4096 33 := iblk m c 0 t
abbrev b1 (c : Dev nD) (t : Fin cfg0.N) : Arr2 33 4096 := iblk m c 1 t
abbrev b2 (c : Dev nD) (t : Fin cfg0.N) : Arr2 4096 32 := iblk m c 2 t
abbrev b3 (c : Dev nD) (t : Fin cfg0.N) : Arr2 1 32 := iblk m c 3 t
abbrev b4 (c : Dev nD) (t : Fin cfg0.N) : Arr2 65 4096 := iblk m c 4 t
abbrev b5 (c : Dev nD) (t : Fin cfg0.N) : Arr2 4096 128 := iblk m c 5 t
abbrev b6 (c : Dev nD) (t : Fin cfg0.N) : Arr2 1 128 := iblk m c 6 t

/-! ## Windows 1 to 6: the whole array, one host operation or two from an argument -/

/-- Window 1's block index is (0, 0) at every point and its block is the whole array. -/
private theorem blk1_apply (c : Dev nD) (t : Fin cfg0.N) (y : S33x4096.Idx) : b1 m c t y = V m c main_v11 y := by
  show V m c main_v11 (((cfg0.win 1).blk t).view.emb y) = V m c main_v11 y
  refine congrArg (V m c main_v11) (funext fun a => Fin.ext ?_)
  match a with
  | ⟨0, _⟩ =>
    show win0_1.index t (0 : Fin 2) * 33 + 1 * (y 0).val = (y 0).val
    have h := (by decide +kernel : ∀ t : Fin grid0.N, win0_1.index t (0 : Fin 2) = 0) t
    omega
  | ⟨1, _⟩ =>
    show win0_1.index t (1 : Fin 2) * 4096 + 1 * (y 1).val = (y 1).val
    have h := (by decide +kernel : ∀ t : Fin grid0.N, win0_1.index t (1 : Fin 2) = 0) t
    omega

/-- Window 2's block index is (0, 0) at every point and its block is the whole array. -/
private theorem blk2_apply (c : Dev nD) (t : Fin cfg0.N) (y : S4096x32.Idx) : b2 m c t y = V m c main_v15 y := by
  show V m c main_v15 (((cfg0.win 2).blk t).view.emb y) = V m c main_v15 y
  refine congrArg (V m c main_v15) (funext fun a => Fin.ext ?_)
  match a with
  | ⟨0, _⟩ =>
    show win0_2.index t (0 : Fin 2) * 4096 + 1 * (y 0).val = (y 0).val
    have h := (by decide +kernel : ∀ t : Fin grid0.N, win0_2.index t (0 : Fin 2) = 0) t
    omega
  | ⟨1, _⟩ =>
    show win0_2.index t (1 : Fin 2) * 32 + 1 * (y 1).val = (y 1).val
    have h := (by decide +kernel : ∀ t : Fin grid0.N, win0_2.index t (1 : Fin 2) = 0) t
    omega

/-- Window 3's block index is (0, 0) at every point and its block is the whole array. -/
private theorem blk3_apply (c : Dev nD) (t : Fin cfg0.N) (y : S1x32.Idx) : b3 m c t y = V m c main_v16 y := by
  show V m c main_v16 (((cfg0.win 3).blk t).view.emb y) = V m c main_v16 y
  refine congrArg (V m c main_v16) (funext fun a => Fin.ext ?_)
  match a with
  | ⟨0, _⟩ =>
    show win0_3.index t (0 : Fin 2) * 1 + 1 * (y 0).val = (y 0).val
    have h := (by decide +kernel : ∀ t : Fin grid0.N, win0_3.index t (0 : Fin 2) = 0) t
    omega
  | ⟨1, _⟩ =>
    show win0_3.index t (1 : Fin 2) * 32 + 1 * (y 1).val = (y 1).val
    have h := (by decide +kernel : ∀ t : Fin grid0.N, win0_3.index t (1 : Fin 2) = 0) t
    omega

/-- Window 4's block index is (0, 0) at every point and its block is the whole array. -/
private theorem blk4_apply (c : Dev nD) (t : Fin cfg0.N) (y : S65x4096.Idx) : b4 m c t y = V m c main_v14 y := by
  show V m c main_v14 (((cfg0.win 4).blk t).view.emb y) = V m c main_v14 y
  refine congrArg (V m c main_v14) (funext fun a => Fin.ext ?_)
  match a with
  | ⟨0, _⟩ =>
    show win0_4.index t (0 : Fin 2) * 65 + 1 * (y 0).val = (y 0).val
    have h := (by decide +kernel : ∀ t : Fin grid0.N, win0_4.index t (0 : Fin 2) = 0) t
    omega
  | ⟨1, _⟩ =>
    show win0_4.index t (1 : Fin 2) * 4096 + 1 * (y 1).val = (y 1).val
    have h := (by decide +kernel : ∀ t : Fin grid0.N, win0_4.index t (1 : Fin 2) = 0) t
    omega

/-- Window 5's block index is (0, 0) at every point and its block is the whole array. -/
private theorem blk5_apply (c : Dev nD) (t : Fin cfg0.N) (y : S4096x128.Idx) : b5 m c t y = V m c main_v17 y := by
  show V m c main_v17 (((cfg0.win 5).blk t).view.emb y) = V m c main_v17 y
  refine congrArg (V m c main_v17) (funext fun a => Fin.ext ?_)
  match a with
  | ⟨0, _⟩ =>
    show win0_5.index t (0 : Fin 2) * 4096 + 1 * (y 0).val = (y 0).val
    have h := (by decide +kernel : ∀ t : Fin grid0.N, win0_5.index t (0 : Fin 2) = 0) t
    omega
  | ⟨1, _⟩ =>
    show win0_5.index t (1 : Fin 2) * 128 + 1 * (y 1).val = (y 1).val
    have h := (by decide +kernel : ∀ t : Fin grid0.N, win0_5.index t (1 : Fin 2) = 0) t
    omega

/-- Window 6's block index is (0, 0) at every point and its block is the whole array. -/
private theorem blk6_apply (c : Dev nD) (t : Fin cfg0.N) (y : S1x128.Idx) : b6 m c t y = V m c main_v18 y := by
  show V m c main_v18 (((cfg0.win 6).blk t).view.emb y) = V m c main_v18 y
  refine congrArg (V m c main_v18) (funext fun a => Fin.ext ?_)
  match a with
  | ⟨0, _⟩ =>
    show win0_6.index t (0 : Fin 2) * 1 + 1 * (y 0).val = (y 0).val
    have h := (by decide +kernel : ∀ t : Fin grid0.N, win0_6.index t (0 : Fin 2) = 0) t
    omega
  | ⟨1, _⟩ =>
    show win0_6.index t (1 : Fin 2) * 128 + 1 * (y 1).val = (y 1).val
    have h := (by decide +kernel : ∀ t : Fin grid0.N, win0_6.index t (1 : Fin 2) = 0) t
    omega

/-! The arrays the host operations wrote, as terms over the arguments. -/

private theorem v15_eq (c : Dev nD) : (V m c main_v15 : Arr2 4096 32) = truncf (F := Ideal) .bf16 (a4 m c) bitsLt_bf16_f32 := by
  dsimp only [Gen.V, Gen.hostOps0]; after_results

private theorem v17_eq (c : Dev nD) : (V m c main_v17 : Arr2 4096 128) = truncf (F := Ideal) .bf16 (a8 m c) bitsLt_bf16_f32 := by
  dsimp only [Gen.V, Gen.hostOps0]; after_results

private theorem v16_eq (c : Dev nD) : (V m c main_v16 : Arr2 1 32) = shapeCast S1x32 (a5 m c) shapeCasts_S32_S1x32 := by
  dsimp only [Gen.V, Gen.hostOps0]; after_results; rfl

private theorem v18_eq (c : Dev nD) : (V m c main_v18 : Arr2 1 128) = shapeCast S1x128 (a9 m c) shapeCasts_S128_S1x128 := by
  dsimp only [Gen.V, Gen.hostOps0]; after_results; rfl

private theorem v11_eq (c : Dev nD) : (V m c main_v11 : Arr2 33 4096) =
    truncf (F := Ideal) .bf16 (concatenate S33x4096 0 [⟨S32x4096, a2 m c⟩, ⟨S1x4096, broadcastInDim S1x4096 ![1] bcast_S4096_S1x4096_1 (a3 m c)⟩] concatenates_S32x4096_S1x4096_S33x4096_d0) bitsLt_bf16_f32 := by
  dsimp only [Gen.V, Gen.hostOps0]; after_results

private theorem v14_eq (c : Dev nD) : (V m c main_v14 : Arr2 65 4096) =
    truncf (F := Ideal) .bf16 (concatenate S65x4096 0 [⟨S64x4096, a6 m c⟩, ⟨S1x4096, broadcastInDim S1x4096 ![1] bcast_S4096_S1x4096_1 (a7 m c)⟩] concatenates_S64x4096_S1x4096_S65x4096_d0) bitsLt_bf16_f32 := by
  dsimp only [Gen.V, Gen.hostOps0]; after_results

theorem b2_eq (c : Dev nD) (t : Fin cfg0.N) : b2 m c t = a4 m c := by
  funext y
  rw [blk2_apply, v15_eq]
  rfl

theorem b5_eq (c : Dev nD) (t : Fin cfg0.N) : b5 m c t = a8 m c := by
  funext y
  rw [blk5_apply, v17_eq]
  rfl

theorem b3_apply (c : Dev nD) (t : Fin cfg0.N) (j : Fin 32) : b3 m c t (ix2 0 j) = a5 m c (ix1 j) := by
  rw [blk3_apply, v16_eq]
  exact shapeCast_a_1a_apply _ _ 0 j

theorem b6_apply (c : Dev nD) (t : Fin cfg0.N) (q : Fin 128) : b6 m c t (ix2 0 q) = a9 m c (ix1 q) := by
  rw [blk6_apply, v18_eq]
  exact shapeCast_a_1a_apply _ _ 0 q

theorem b1_w (c : Dev nD) (t : Fin cfg0.N) (i : Fin 32) (k : Fin 4096) :
    b1 m c t (ix2 (⟨i.val, by omega⟩ : Fin 33) k) = a2 m c (ix2 i k) := by
  rw [blk1_apply, v11_eq, truncf_apply]
  exact concatenate_apply_piece (t := S33x4096) (0 : Fin 2)
    [⟨S32x4096, a2 m c⟩, ⟨S1x4096, broadcastInDim S1x4096 ![1] bcast_S4096_S1x4096_1 (a3 m c)⟩]
    concatenates_S32x4096_S1x4096_S33x4096_d0 _ 0 Nat.zero_lt_two S32x4096 (a2 m c) rfl rfl 0 rfl (ix2 i k)
    (fun b hb => match b with | ⟨0, _⟩ => absurd rfl hb | ⟨1, _⟩ => rfl) (Nat.zero_add _)

theorem b1_b (c : Dev nD) (t : Fin cfg0.N) (k : Fin 4096) : b1 m c t (ix2 (⟨32, by omega⟩ : Fin 33) k) = a3 m c (ix1 k) := by
  rw [blk1_apply, v11_eq, truncf_apply]
  rw [concatenate_apply_piece (t := S33x4096) (0 : Fin 2)
    [⟨S32x4096, a2 m c⟩, ⟨S1x4096, broadcastInDim S1x4096 ![1] bcast_S4096_S1x4096_1 (a3 m c)⟩]
    concatenates_S32x4096_S1x4096_S33x4096_d0 _ 1 Nat.one_lt_two S1x4096 _ rfl rfl 32 rfl (ix2 (0 : Fin 1) k)
    (fun b hb => match b with | ⟨0, _⟩ => absurd rfl hb | ⟨1, _⟩ => rfl) rfl]
  exact broadcastInDim_apply _ bcast_S4096_S1x4096_1 (a3 m c) _ (ix1 k) (fun a => match a with
    | ⟨0, _⟩ => by show k.val = if (4096 : Nat) = 1 then 0 else k.val; rw [if_neg (by decide)])

theorem b4_w (c : Dev nD) (t : Fin cfg0.N) (i : Fin 64) (k : Fin 4096) :
    b4 m c t (ix2 (⟨i.val, by omega⟩ : Fin 65) k) = a6 m c (ix2 i k) := by
  rw [blk4_apply, v14_eq, truncf_apply]
  exact concatenate_apply_piece (t := S65x4096) (0 : Fin 2)
    [⟨S64x4096, a6 m c⟩, ⟨S1x4096, broadcastInDim S1x4096 ![1] bcast_S4096_S1x4096_1 (a7 m c)⟩]
    concatenates_S64x4096_S1x4096_S65x4096_d0 _ 0 Nat.zero_lt_two S64x4096 (a6 m c) rfl rfl 0 rfl (ix2 i k)
    (fun b hb => match b with | ⟨0, _⟩ => absurd rfl hb | ⟨1, _⟩ => rfl) (Nat.zero_add _)

theorem b4_b (c : Dev nD) (t : Fin cfg0.N) (k : Fin 4096) : b4 m c t (ix2 (⟨64, by omega⟩ : Fin 65) k) = a7 m c (ix1 k) := by
  rw [blk4_apply, v14_eq, truncf_apply]
  rw [concatenate_apply_piece (t := S65x4096) (0 : Fin 2)
    [⟨S64x4096, a6 m c⟩, ⟨S1x4096, broadcastInDim S1x4096 ![1] bcast_S4096_S1x4096_1 (a7 m c)⟩]
    concatenates_S64x4096_S1x4096_S65x4096_d0 _ 1 Nat.one_lt_two S1x4096 _ rfl rfl 64 rfl (ix2 (0 : Fin 1) k)
    (fun b hb => match b with | ⟨0, _⟩ => absurd rfl hb | ⟨1, _⟩ => rfl) rfl]
  exact broadcastInDim_apply _ bcast_S4096_S1x4096_1 (a7 m c) _ (ix1 k) (fun a => match a with
    | ⟨0, _⟩ => by show k.val = if (4096 : Nat) = 1 then 0 else k.val; rw [if_neg (by decide)])

/-! ## Window 0: 4096 rows of the interleaved array -/

/-- Point `t`'s block of the interleaved array starts at row 4096·t and spans all 33 columns. -/
private theorem blk0_apply (c : Dev nD) (t : Fin cfg0.N) (y : S4096x33.Idx) (z : S32768x33.Idx)
    (h0 : (z 0).val = 4096 * t.val + (y 0).val) (h1 : (z 1).val = (y 1).val) : b0 m c t y = V m c main_v8 z := by
  show V m c main_v8 (((cfg0.win 0).blk t).view.emb y) = V m c main_v8 z
  refine congrArg (V m c main_v8) (funext fun a => Fin.ext ?_)
  match a with
  | ⟨0, _⟩ =>
    show win0_0.index t (0 : Fin 2) * 4096 + 1 * (y 0).val = (z 0).val
    have h := (by decide +kernel : ∀ t : Fin grid0.N, win0_0.index t (0 : Fin 2) = t.val) t
    omega
  | ⟨1, _⟩ =>
    show win0_0.index t (1 : Fin 2) * 33 + 1 * (y 1).val = (z 1).val
    have h := (by decide +kernel : ∀ t : Fin grid0.N, win0_0.index t (1 : Fin 2) = 0) t
    omega

/-- One input with a column of ones appended. -/
private def withOne (x : Arr2 16384 32) : Arr2 16384 33 :=
  concatenate S16384x33 1 [⟨S16384x32, x⟩, ⟨S16384x1, broadcastInDim S16384x1 ![] bcast_S_S16384x1 (constant (F := Ideal) S_ .f32 0x3F800000#32)⟩] concatenates_S16384x32_S16384x1_S16384x33_d1

/-- The same cut into 32 groups of 512 rows. -/
private def grouped (x : Arr2 16384 32) : S32x512x33.Idx → EReal :=
  shapeCast S32x512x33 (truncf (F := Ideal) .bf16 (withOne x) bitsLt_bf16_f32) shapeCasts_S16384x33_S32x512x33

/-- The two inputs' groups side by side: group g holds 512 rows of the first input, then the same 512 rows of the second. -/
private def interleaved (x y : Arr2 16384 32) : S32x1024x33.Idx → EReal :=
  concatenate S32x1024x33 1 [⟨S32x512x33, grouped x⟩, ⟨S32x512x33, grouped y⟩] concatenates_S32x512x33_S32x512x33_S32x1024x33_d1

private theorem v8_eq (c : Dev nD) : (V m c main_v8 : Arr2 32768 33) =
    shapeCast S32768x33 (interleaved (a0 m c) (a1 m c)) shapeCasts_S32x1024x33_S32768x33 := by
  dsimp only [Gen.V, Gen.hostOps0]; after_results; rfl

private theorem withOne_left (x : Arr2 16384 32) (r : Fin 16384) (i : Fin 32) :
    withOne x (ix2 r (⟨i.val, by omega⟩ : Fin 33)) = x (ix2 r i) := by
  unfold withOne
  exact concatenate_apply_piece (t := S16384x33) (1 : Fin 2)
    [⟨S16384x32, x⟩, ⟨S16384x1, broadcastInDim S16384x1 ![] bcast_S_S16384x1 (constant (F := Ideal) S_ .f32 0x3F800000#32)⟩]
    concatenates_S16384x32_S16384x1_S16384x33_d1 _ 0 Nat.zero_lt_two S16384x32 x rfl rfl 0 rfl (ix2 r i)
    (fun b hb => match b with | ⟨0, _⟩ => rfl | ⟨1, _⟩ => absurd rfl hb) (Nat.zero_add _)

private theorem withOne_right (x : Arr2 16384 32) (r : Fin 16384) : withOne x (ix2 r (⟨32, by omega⟩ : Fin 33)) = 1 := by
  unfold withOne
  rw [concatenate_apply_piece (t := S16384x33) (1 : Fin 2)
    [⟨S16384x32, x⟩, ⟨S16384x1, broadcastInDim S16384x1 ![] bcast_S_S16384x1 (constant (F := Ideal) S_ .f32 0x3F800000#32)⟩]
    concatenates_S16384x32_S16384x1_S16384x33_d1 _ 1 Nat.one_lt_two S16384x1 _ rfl rfl 32 rfl (ix2 r (0 : Fin 1))
    (fun b hb => match b with | ⟨0, _⟩ => rfl | ⟨1, _⟩ => absurd rfl hb) rfl]
  rw [broadcastInDim_apply _ bcast_S_S16384x1 _ _ ix0 (fun a => a.elim0), constant_apply]
  exact Ideal.ofBits_one_f32

private theorem grouped_apply (x : Arr2 16384 32) (g : Fin 32) (p : Fin 512) (q : Fin 33) (r : Fin 16384)
    (hr : r.val = 512 * g.val + p.val) : grouped x (ix3 g p q) = withOne x (ix2 r q) := by
  unfold grouped
  rw [shapeCast_apply _ shapeCasts_S16384x33_S32x512x33 (ix3 g p q) (ix2 r q) (by
    rw [Shape.rowMajor_val_two, Shape.rowMajor_val_three]
    show r.val * 33 + q.val = (g.val * 512 + p.val) * 33 + q.val
    rw [hr]; omega)]
  rfl

private theorem interleaved_first (x y : Arr2 16384 32) (g : Fin 32) (p : Fin 1024) (hp : p.val < 512) (q : Fin 33) :
    interleaved x y (ix3 g p q) = grouped x (ix3 g (⟨p.val, hp⟩ : Fin 512) q) := by
  unfold interleaved
  exact concatenate_apply_piece (t := S32x1024x33) (1 : Fin 3)
    [⟨S32x512x33, grouped x⟩, ⟨S32x512x33, grouped y⟩]
    concatenates_S32x512x33_S32x512x33_S32x1024x33_d1 _ 0 Nat.zero_lt_two S32x512x33 (grouped x) rfl rfl 0 rfl (ix3 g (⟨p.val, hp⟩ : Fin 512) q)
    (fun b hb => match b with | ⟨0, _⟩ => rfl | ⟨1, _⟩ => absurd rfl hb | ⟨2, _⟩ => rfl) (Nat.zero_add _)

private theorem interleaved_second (x y : Arr2 16384 32) (g : Fin 32) (p : Fin 1024) (hp : 512 ≤ p.val) (q : Fin 33) :
    interleaved x y (ix3 g p q) = grouped y (ix3 g (⟨p.val - 512, by omega⟩ : Fin 512) q) := by
  unfold interleaved
  exact concatenate_apply_piece (t := S32x1024x33) (1 : Fin 3)
    [⟨S32x512x33, grouped x⟩, ⟨S32x512x33, grouped y⟩]
    concatenates_S32x512x33_S32x512x33_S32x1024x33_d1 _ 1 Nat.one_lt_two S32x512x33 (grouped y) rfl rfl 512 rfl (ix3 g (⟨p.val - 512, by omega⟩ : Fin 512) q)
    (fun b hb => match b with | ⟨0, _⟩ => rfl | ⟨1, _⟩ => absurd rfl hb | ⟨2, _⟩ => rfl)
    (by show 512 + (p.val - 512) = p.val; omega)

private theorem v8_apply (c : Dev nD) (z : S32768x33.Idx) (g : Fin 32) (p : Fin 1024) (q : Fin 33)
    (hz : (z 0).val = 1024 * g.val + p.val) (hq : (z 1).val = q.val) :
    V m c main_v8 z = interleaved (a0 m c) (a1 m c) (ix3 g p q) := by
  rw [v8_eq]
  exact shapeCast_apply _ shapeCasts_S32x1024x33_S32768x33 z (ix3 g p q) (by
    rw [Shape.rowMajor_val_two, Shape.rowMajor_val_three]
    show (g.val * 1024 + p.val) * 33 + q.val = (z 0).val * 33 + (z 1).val
    rw [hz, hq]; omega)

/-- Block row `R` at point `t` is position `R % 1024` of group `4·t + R / 1024`. -/
private theorem b0_interleaved (c : Dev nD) (t : Fin cfg0.N) (R : Fin 4096) (q : Fin 33) (g : Fin 32) (p : Fin 1024)
    (hg : g.val = 4 * t.val + R.val / 1024) (hp : p.val = R.val % 1024) :
    b0 m c t (ix2 R q) = interleaved (a0 m c) (a1 m c) (ix3 g p q) := by
  have ht : t.val < 8 := lt_of_lt_of_eq t.isLt N_0
  have hR := R.isLt
  rw [blk0_apply m c t (ix2 R q) (ix2 (⟨4096 * t.val + R.val, by omega⟩ : Fin 32768) q) rfl rfl]
  exact v8_apply m c _ g p q (by show 4096 * t.val + R.val = 1024 * g.val + p.val; omega) rfl

/-- A first-half row of a 1024-row group of the block is a row of the first input. -/
theorem b0_first (c : Dev nD) (t : Fin cfg0.N) (R : Fin 4096) (hR : R.val % 1024 < 512) (i : Fin 32) (r : Fin 16384)
    (hr : r.val = 2048 * t.val + 512 * (R.val / 1024) + R.val % 512) :
    b0 m c t (ix2 R (⟨i.val, by omega⟩ : Fin 33)) = a0 m c (ix2 r i) := by
  have ht : t.val < 8 := lt_of_lt_of_eq t.isLt N_0
  have hR' := R.isLt
  rw [b0_interleaved m c t R _ (⟨4 * t.val + R.val / 1024, by omega⟩ : Fin 32) (⟨R.val % 1024, by omega⟩ : Fin 1024) rfl rfl,
    interleaved_first _ _ _ _ hR,
    grouped_apply _ _ _ _ r (by show r.val = 512 * (4 * t.val + R.val / 1024) + R.val % 1024; omega)]
  exact withOne_left _ r i

/-- A second-half row of a 1024-row group of the block is the same row of the second input. -/
theorem b0_second (c : Dev nD) (t : Fin cfg0.N) (R : Fin 4096) (hR : 512 ≤ R.val % 1024) (i : Fin 32) (r : Fin 16384)
    (hr : r.val = 2048 * t.val + 512 * (R.val / 1024) + R.val % 512) :
    b0 m c t (ix2 R (⟨i.val, by omega⟩ : Fin 33)) = a1 m c (ix2 r i) := by
  have ht : t.val < 8 := lt_of_lt_of_eq t.isLt N_0
  have hR' := R.isLt
  rw [b0_interleaved m c t R _ (⟨4 * t.val + R.val / 1024, by omega⟩ : Fin 32) (⟨R.val % 1024, by omega⟩ : Fin 1024) rfl rfl,
    interleaved_second _ _ _ _ hR,
    grouped_apply _ _ _ _ r (by show r.val = 512 * (4 * t.val + R.val / 1024) + (R.val % 1024 - 512); omega)]
  exact withOne_left _ r i

/-- The block's last column is 1. -/
theorem b0_one (c : Dev nD) (t : Fin cfg0.N) (R : Fin 4096) : b0 m c t (ix2 R (⟨32, by omega⟩ : Fin 33)) = 1 := by
  have ht : t.val < 8 := lt_of_lt_of_eq t.isLt N_0
  have hR' := R.isLt
  rw [b0_interleaved m c t R _ (⟨4 * t.val + R.val / 1024, by omega⟩ : Fin 32) (⟨R.val % 1024, by omega⟩ : Fin 1024) rfl rfl]
  by_cases hR : R.val % 1024 < 512
  · rw [interleaved_first _ _ _ _ hR,
      grouped_apply _ _ _ _ (⟨512 * (4 * t.val + R.val / 1024) + R.val % 1024, by omega⟩ : Fin 16384) rfl]
    exact withOne_right _ _
  · rw [interleaved_second _ _ _ _ (by show 512 ≤ R.val % 1024; omega),
      grouped_apply _ _ _ _ (⟨512 * (4 * t.val + R.val / 1024) + (R.val % 1024 - 512), by omega⟩ : Fin 16384) rfl]
    exact withOne_right _ _

end Cert.KernelIdeal.HostBlocks

end
-- ==== Proof.KernelValue.lean ====
/-
  The kernel's output array after the run is the network of the arguments.

  At grid point t the body leaves, in rows 512·k .. 512·k+511 of the 2048-row output block, stream k's result: the
  network on rows 2048·t + 512·k + p of the two inputs (the window's blocks put exactly those rows, interleaved, in
  front of the stream). The block is written back to rows 2048·t .. of the output array, and the eight blocks tile it.
-/
import proofs.«140537_g11802570129985_cont_fleet_79_23_alg».proof.Proof.Gen.KernelIdeal.Value
import proofs.«140537_g11802570129985_cont_fleet_79_23_alg».proof.Proof.StreamValue
import proofs.«140537_g11802570129985_cont_fleet_79_23_alg».proof.Proof.HostBlocks

noncomputable section

open scoped BigOperators

set_option maxRecDepth 16384

namespace Cert.KernelIdeal.KernelValue

open Idealize.ShloMosaic Idealize.ShloMosaic.TcCoe Idealize.ShloMosaic.ValueIdx Idealize.SL.Sem
open Cert.KernelIdeal Cert.KernelIdeal.Gen Cert.KernelIdeal.Streams Cert.KernelIdeal.HostBlocks Cert.Siamese
open Idealize.ShloMosaic.Pipeline (Dat)

variable (m : (ℓ : Loc nD τ sig) → Buf (Elt Ideal) ℓ) (ρ : Dev nD → PrngReg)

/-- The network of core `c`'s ten arguments. -/
abbrev Gm (c : Dev nD) : Arr2 16384 128 :=
  G (a0 m c) (a1 m c) (a2 m c) (a3 m c) (a4 m c) (a5 m c) (a6 m c) (a7 m c) (a8 m c) (a9 m c)

/-- Stream `k` of point `t`: if `X` is rows 1024·k .. of the input block, entry (p, q) of the stream's result is the
    network at row 2048·t + 512·k + p. -/
theorem stream_block (c : Dev nD) (t : Fin cfg0.N) (X : Arr2 1024 33) (k : Nat) (hk : k < 4)
    (hX : ∀ (y : Fin 1024) (j : Fin 33), X (ix2 y j) = b0 m c t (ix2 (⟨1024 * k + y.val, by have := y.isLt; omega⟩ : Fin 4096) j))
    (p : Fin 512) (q : Fin 128) (r : Fin 16384) (hr : r.val = 2048 * t.val + 512 * k + p.val) :
    stream (F := Ideal) X (b1 m c t) (b2 m c t) (b3 m c t) (b4 m c t) (b5 m c t) (b6 m c t) (ix2 p q) = Gm m c (ix2 r q) := by
  have hp := p.isLt
  rw [stream_apply,
    headK_eq (b4 m c t) (a6 m c) (a7 m c) (b5 m c t) (b6 m c t) (a9 m c) _ _ (b4_w m c t) (b4_b m c t) (b6_apply m c t),
    encK_eq (b1 m c t) (a2 m c) (a3 m c) (b2 m c t) (b3 m c t) (a5 m c)
      (fun i => X (ix2 (⟨p.val, by omega⟩ : Fin 1024) i)) (fun a => a0 m c (ix2 r a)) (b1_w m c t) (b1_b m c t)
      (fun i => (hX _ _).trans (b0_first m c t _ (by simp only []; omega) i r (by simp only []; omega)))
      ((hX _ _).trans (b0_one m c t _)) (b3_apply m c t),
    encK_eq (b1 m c t) (a2 m c) (a3 m c) (b2 m c t) (b3 m c t) (a5 m c)
      (fun i => X (ix2 (⟨p.val + 512, by omega⟩ : Fin 1024) i)) (fun a => a1 m c (ix2 r a)) (b1_w m c t) (b1_b m c t)
      (fun i => (hX _ _).trans (b0_second m c t _ (by simp only []; omega) i r (by simp only []; omega)))
      ((hX _ _).trans (b0_one m c t _)) (b3_apply m c t),
    b2_eq, b5_eq]
  rfl

/-- The output window's block index at point `t` is (t, 0); decided over the eight points. -/
theorem idx_facts7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)

/-- Every row block of the output is some point's. -/
theorem idx_onto7 : ∀ q0 : Fin 8, ∃ t : Fin cfg0.N, win0_7.index t = ![q0.val, 0] :=
  (by decide +kernel : ∀ q0 : Fin 8, ∃ t : Fin grid0.N, win0_7.index t = ![q0.val, 0])

/-- Rows `off ..` of a 4096-row block, loaded as 1024 rows: row y of the load is row off + y of the block. -/
theorem ld_rows (X : Arr2 4096 33) (off : Nat) (inb : ∀ a, (![off, 0] : Fin 2 → Nat) a + S1024x33.size a ≤ S4096x33.size a)
    (y : Fin 1024) (j : Fin 33) (hoff : off + 1024 ≤ 4096) :
    View.ld (Val := Elt Ideal) (e' := .bf16) X (Rect.unit (s := S4096x33) ![off, 0] S1024x33.size inb) (ix2 y j)
      = X (ix2 (⟨off + y.val, by have := y.isLt; omega⟩ : Fin 4096) j) := by
  show X _ = X _
  refine congrArg X (funext fun a => Fin.ext ?_)
  match a with
  | ⟨0, _⟩ => show off + 1 * y.val = off + y.val; omega
  | ⟨1, _⟩ => show 0 + 1 * j.val = j.val; omega

/-- Stream 0 of point `t`: the network at rows 2048·t + 0 + p. -/
theorem piece0 (c : Dev nD) (t : Fin cfg0.N) (ht : t.val < 8) (p : Fin 512) (q : Fin 128) :
    stream (F := Ideal) (View.ld (Val := Elt Ideal) (e' := .bf16) (b0 m c t) r0_0) (b1 m c t) (b2 m c t) (b3 m c t) (b4 m c t) (b5 m c t) (b6 m c t) (ix2 p q)
      = Gm m c (ix2 (⟨2048 * t.val + 0 + p.val, by have := p.isLt; omega⟩ : Fin 16384) q) :=
  stream_block m c t (View.ld (Val := Elt Ideal) (e' := .bf16) (b0 m c t) r0_0) 0 (by omega) (fun y j => ld_rows (b0 m c t) 0 _ y j (by omega)) p q _ (by show 2048 * t.val + 0 + p.val = _; omega)

/-- Stream 1 of point `t`: the network at rows 2048·t + 512 + p. -/
theorem piece1 (c : Dev nD) (t : Fin cfg0.N) (ht : t.val < 8) (p : Fin 512) (q : Fin 128) :
    stream (F := Ideal) (View.ld (Val := Elt Ideal) (e' := .bf16) (b0 m c t) r0_1) (b1 m c t) (b2 m c t) (b3 m c t) (b4 m c t) (b5 m c t) (b6 m c t) (ix2 p q)
      = Gm m c (ix2 (⟨2048 * t.val + 512 + p.val, by have := p.isLt; omega⟩ : Fin 16384) q) :=
  stream_block m c t (View.ld (Val := Elt Ideal) (e' := .bf16) (b0 m c t) r0_1) 1 (by omega) (fun y j => ld_rows (b0 m c t) 1024 _ y j (by omega)) p q _ (by show 2048 * t.val + 512 + p.val = _; omega)

/-- Stream 2 of point `t`: the network at rows 2048·t + 1024 + p. -/
theorem piece2 (c : Dev nD) (t : Fin cfg0.N) (ht : t.val < 8) (p : Fin 512) (q : Fin 128) :
    stream (F := Ideal) (View.ld (Val := Elt Ideal) (e' := .bf16) (b0 m c t) r0_2) (b1 m c t) (b2 m c t) (b3 m c t) (b4 m c t) (b5 m c t) (b6 m c t) (ix2 p q)
      = Gm m c (ix2 (⟨2048 * t.val + 1024 + p.val, by have := p.isLt; omega⟩ : Fin 16384) q) :=
  stream_block m c t (View.ld (Val := Elt Ideal) (e' := .bf16) (b0 m c t) r0_2) 2 (by omega) (fun y j => ld_rows (b0 m c t) 2048 _ y j (by omega)) p q _ (by show 2048 * t.val + 1024 + p.val = _; omega)

/-- Stream 3 of point `t`: the network at rows 2048·t + 1536 + p. -/
theorem piece3 (c : Dev nD) (t : Fin cfg0.N) (ht : t.val < 8) (p : Fin 512) (q : Fin 128) :
    stream (F := Ideal) (View.ld (Val := Elt Ideal) (e' := .bf16) (b0 m c t) r0_3) (b1 m c t) (b2 m c t) (b3 m c t) (b4 m c t) (b5 m c t) (b6 m c t) (ix2 p q)
      = Gm m c (ix2 (⟨2048 * t.val + 1536 + p.val, by have := p.isLt; omega⟩ : Fin 16384) q) :=
  stream_block m c t (View.ld (Val := Elt Ideal) (e' := .bf16) (b0 m c t) r0_3) 3 (by omega) (fun y j => ld_rows (b0 m c t) 3072 _ y j (by omega)) p q _ (by show 2048 * t.val + 1536 + p.val = _; omega)

/-- The output block the body leaves at point `t`, entry by entry: the network at row 2048·t + z₀. -/
theorem canon_eq (c : Dev nD) (t : Fin cfg0.N) (ht : t.val < 8) (z : S2048x128.Idx) :
    View.canon ([⟨r0_73, stream (F := Ideal) (View.ld (Val := Elt Ideal) (e' := .bf16) (b0 m c t) r0_3) (b1 m c t) (b2 m c t) (b3 m c t) (b4 m c t) (b5 m c t) (b6 m c t)⟩,
        ⟨r0_72, stream (F := Ideal) (View.ld (Val := Elt Ideal) (e' := .bf16) (b0 m c t) r0_2) (b1 m c t) (b2 m c t) (b3 m c t) (b4 m c t) (b5 m c t) (b6 m c t)⟩,
        ⟨r0_71, stream (F := Ideal) (View.ld (Val := Elt Ideal) (e' := .bf16) (b0 m c t) r0_1) (b1 m c t) (b2 m c t) (b3 m c t) (b4 m c t) (b5 m c t) (b6 m c t)⟩,
        ⟨r0_70, stream (F := Ideal) (View.ld (Val := Elt Ideal) (e' := .bf16) (b0 m c t) r0_0) (b1 m c t) (b2 m c t) (b3 m c t) (b4 m c t) (b5 m c t) (b6 m c t)⟩]
        : List (View.Piece (Elt Ideal) S2048x128 .f32)) z
      = Gm m c (ix2 (⟨2048 * t.val + (z 0).val, by have : (z 0).val < 2048 := (z 0).isLt; omega⟩ : Fin 16384) (⟨(z 1).val, (z 1).isLt⟩ : Fin 128)) := by
  refine View.canon_apply_of_pieces (Val := Elt Ideal) (fun z : S2048x128.Idx =>
    Gm m c (ix2 (⟨2048 * t.val + (z 0).val, by have : (z 0).val < 2048 := (z 0).isLt; omega⟩ : Fin 16384) (⟨(z 1).val, (z 1).isLt⟩ : Fin 128)))
    _ ?_ z (cover0_7 _ _ _ _ z)
  intro pc hpc x
  simp only [List.mem_cons, List.mem_singleton, List.not_mem_nil, or_false] at hpc
  rcases hpc with rfl | rfl | rfl | rfl
  · obtain ⟨p, q, rfl⟩ : ∃ (p : Fin 512) (q : Fin 128), x = ix2 p q := ⟨x 0, x 1, eq_ix2 x⟩
    refine (piece3 m c t ht p q).trans (congrArg (Gm m c) (funext fun a => Fin.ext ?_))
    match a with
    | ⟨0, _⟩ => show 2048 * t.val + 1536 + p.val = 2048 * t.val + (1536 + 1 * p.val); omega
    | ⟨1, _⟩ => show q.val = 0 + 1 * q.val; omega
  · obtain ⟨p, q, rfl⟩ : ∃ (p : Fin 512) (q : Fin 128), x = ix2 p q := ⟨x 0, x 1, eq_ix2 x⟩
    refine (piece2 m c t ht p q).trans (congrArg (Gm m c) (funext fun a => Fin.ext ?_))
    match a with
    | ⟨0, _⟩ => show 2048 * t.val + 1024 + p.val = 2048 * t.val + (1024 + 1 * p.val); omega
    | ⟨1, _⟩ => show q.val = 0 + 1 * q.val; omega
  · obtain ⟨p, q, rfl⟩ : ∃ (p : Fin 512) (q : Fin 128), x = ix2 p q := ⟨x 0, x 1, eq_ix2 x⟩
    refine (piece1 m c t ht p q).trans (congrArg (Gm m c) (funext fun a => Fin.ext ?_))
    match a with
    | ⟨0, _⟩ => show 2048 * t.val + 512 + p.val = 2048 * t.val + (512 + 1 * p.val); omega
    | ⟨1, _⟩ => show q.val = 0 + 1 * q.val; omega
  · obtain ⟨p, q, rfl⟩ : ∃ (p : Fin 512) (q : Fin 128), x = ix2 p q := ⟨x 0, x 1, eq_ix2 x⟩
    refine (piece0 m c t ht p q).trans (congrArg (Gm m c) (funext fun a => Fin.ext ?_))
    match a with
    | ⟨0, _⟩ => show 2048 * t.val + 0 + p.val = 2048 * t.val + (0 + 1 * p.val); omega
    | ⟨1, _⟩ => show q.val = 0 + 1 * q.val; omega

/-- What point `t` writes back is block `t` of the network of the arguments. -/
theorem flushed_eq (c : Dev nD) (t : Fin cfg0.N) :
    (dats m 0 c).flushed 7 t = ((cfg0.win 7).blk t).view.read (Elt Ideal) (Gm m c) := by
  rw [Value.flushed7, out_eq]
  obtain ⟨e0, e1⟩ := idx_facts7 t
  have ht : t.val < 8 := lt_of_lt_of_eq t.isLt N_0
  funext y
  -- the block's entry y sits at row 2048·t + y₀, column y₁ of the array
  have hy0 : (y 0).val < 2048 := (y 0).isLt
  have hy1 : (y 1).val < 128 := (y 1).isLt
  have hemb : ((cfg0.win 7).blk t).view.emb y
      = ix2 (⟨2048 * t.val + (y 0).val, by omega⟩ : Fin 16384) (⟨(y 1).val, hy1⟩ : Fin 128) := by
    funext a; apply Fin.ext
    match a with
    | ⟨0, _⟩ => show win0_7.index t (0 : Fin 2) * 2048 + 1 * (y 0).val = 2048 * t.val + (y 0).val; omega
    | ⟨1, _⟩ => show win0_7.index t (1 : Fin 2) * 128 + 1 * (y 1).val = (y 1).val; omega
  rw [View.read_apply, hemb]
  exact canon_eq m c t ht y

/-- An index of the output array is in point `t`'s block iff its row is among the block's 2048. -/
theorem mem_blk7 (t : Fin cfg0.N) (i : S16384x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v19).slice (win0_7.rect t)).set ↔ _
  rw [View.set_slice_whole, Rect.mem_set_unit]
  exact Iff.rfl

/-- The eight blocks cover the output array. -/
theorem cover7 (i : S16384x128.Idx) : ∃ t : Fin cfg0.N, (cfg0.win 7).flush t = true ∧ i ∈ ((cfg0.win 7).blk t).view.set := by
  have hi0 : (i 0).val < 16384 := (i 0).isLt
  have hi1 : (i 1).val < 128 := (i 1).isLt
  obtain ⟨t, ht⟩ := idx_onto7 ⟨(i 0).val / 2048, by omega⟩
  have q0 : win0_7.index t (0 : Fin 2) = (i 0).val / 2048 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 2048 ≤ (i 0).val ∧ (i 0).val < win0_7.index t (0 : Fin 2) * 2048 + 2048; omega
  | ⟨1, _⟩ => show win0_7.index t (1 : Fin 2) * 128 ≤ (i 1).val ∧ (i 1).val < win0_7.index t (1 : Fin 2) * 128 + 128; omega

/-- The output array after the run. -/
theorem final7 (c : Dev nD) : (dats m 0 c).arrAt 7 cfg0.N = Gm m c :=
  (dats m 0 c).arrAt_eq_of_cover 7 (Gm m c) (fun t _ => flushed_eq m c t) cover7

/-- The kernel's run: the result array is the network of the arguments, which are left as they were. -/
theorem run : θ_run defs (onTc (τ := τ) (main (F := Ideal))) ⟨m, fun _ => 0, ρ⟩ fun r => ∀ c : Dev nD,
      r.2.mem ((c : Thread nD τ).loc main_v19) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final7 m c), (h c).2⟩) (Value.run_blocks m ρ)

end Cert.KernelIdeal.KernelValue

end
-- ==== Proof.RefValue.lean ====
/-
  The reference program's result, entry by entry, is the network.
-/
import proofs.«140537_g11802570129985_cont_fleet_79_23_alg».proof.Proof.Gen.ReferenceIdeal.Read
import proofs.«140537_g11802570129985_cont_fleet_79_23_alg».proof.Proof.Net
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefValue

open Idealize.ShloMosaic Idealize.ShloMosaic.ValueIdx Cert.ReferenceIdeal Cert.ReferenceIdeal.Read Cert.Siamese

/-- A first-layer hidden unit of the reference: the relu of one row against one column, plus that column's bias. -/
private theorem hid_apply (x : Arr2 16384 32) (x2 : Arr2 32 4096) (x3 : Arr1 4096) (r : Fin 16384) (k : Fin 4096) :
    val_main_v4 (F := Ideal) x x2 x3 (ix2 r k)
      = relu ((∑ i : Fin 32, x (ix2 r i) * x2 (ix2 i k)) + x3 (ix1 k)) := by
  have e1 : ∀ i : Fin 32, lidx_main_v0 (ix2 r k) i = ix2 r i := fun i =>
    funext fun a => Fin.ext (by match a with | ⟨0, _⟩ => rfl | ⟨1, _⟩ => rfl)
  have e2 : ∀ i : Fin 32, ridx_main_v0 (ix2 r k) i = ix2 i k := fun i =>
    funext fun a => Fin.ext (by match a with | ⟨0, _⟩ => rfl | ⟨1, _⟩ => rfl)
  have e3 : idx_main_v1 (idx_main_v2 (ix2 r k)) = ix1 k :=
    funext fun a => Fin.ext (by match a with | ⟨0, _⟩ => rfl)
  rw [val_main_v4_apply, val_main_v3_apply, val_main_v0_apply, val_main_v2_apply, val_main_v1_apply,
    val_main_call0_v0_apply, val_main_call0_cst_apply, e3, Ideal.ofBits_def, Ideal.ofBits_zero_f32,
    Ideal.maximumf_def, Ideal.addf_def]
  refine congrArg (fun t => relu (t + x3 (ix1 k))) (Finset.sum_congr rfl fun i _ => ?_)
  rw [e1, e2]

/-- One encoder branch of the reference, read at row `r`, column `j`: the first two layers on row `r` of its input. -/
private theorem enc_apply (x : Arr2 16384 32) (x2 : Arr2 32 4096) (x3 : Arr1 4096) (x4 : Arr2 4096 32) (x5 : Arr1 32)
    (r : Fin 16384) (j : Fin 32) :
    val_main_v9 (F := Ideal) x x2 x3 x4 x5 (ix2 r j) = enc x2 x3 x4 x5 (fun a => x (ix2 r a)) j := by
  have e1 : ∀ k : Fin 4096, lidx_main_v5 (ix2 r j) k = ix2 r k := fun k =>
    funext fun a => Fin.ext (by match a with | ⟨0, _⟩ => rfl | ⟨1, _⟩ => rfl)
  have e2 : ∀ k : Fin 4096, ridx_main_v5 (ix2 r j) k = ix2 k j := fun k =>
    funext fun a => Fin.ext (by match a with | ⟨0, _⟩ => rfl | ⟨1, _⟩ => rfl)
  have e3 : idx_main_v6 (idx_main_v7 (ix2 r j)) = ix1 j :=
    funext fun a => Fin.ext (by match a with | ⟨0, _⟩ => rfl)
  rw [val_main_v9_apply, val_main_v8_apply, val_main_v5_apply, val_main_v7_apply, val_main_v6_apply,
    val_main_call1_v0_apply, val_main_call1_cst_apply, e3, Ideal.ofBits_def, Ideal.ofBits_zero_f32,
    Ideal.maximumf_def, Ideal.addf_def]
  unfold enc
  refine congrArg (fun t => relu (t + x5 (ix1 j))) (Finset.sum_congr rfl fun k _ => ?_)
  rw [e1, e2, hid_apply]

/-- The second branch is the first branch's program applied to the other input. -/
private theorem v19_eq (x : Arr2 16384 32) (x2 : Arr2 32 4096) (x3 : Arr1 4096) (x4 : Arr2 4096 32) (x5 : Arr1 32) :
    val_main_v19 (F := Ideal) x x2 x3 x4 x5 = val_main_v9 (F := Ideal) x x2 x3 x4 x5 := rfl

/-- The joined array at row `r`, column `c`: the first branch for `c < 32`, the second at `c - 32` otherwise. -/
private theorem cat_apply (x0 x1 : Arr2 16384 32) (x2 : Arr2 32 4096) (x3 : Arr1 4096) (x4 : Arr2 4096 32) (x5 : Arr1 32)
    (r : Fin 16384) (c : Fin 64) :
    val_main_v20 (F := Ideal) x0 x1 x2 x3 x4 x5 (ix2 r c)
      = pair (fun j => val_main_v9 (F := Ideal) x0 x2 x3 x4 x5 (ix2 r j))
             (fun j => val_main_v19 (F := Ideal) x1 x2 x3 x4 x5 (ix2 r j)) c := by
  unfold val_main_v20 pair
  by_cases h : c.val < 32
  · rw [dif_pos h]
    exact concatenate_apply_piece (1 : Fin S16384x64.rank) _ _ (ix2 r c) 0 (by show (0 : Nat) < 2; omega) S16384x32 _ rfl rfl 0 rfl
      (ix2 r ⟨c.val, h⟩)
      (fun b hb => by match b with | ⟨0, _⟩ => rfl | ⟨1, _⟩ => exact absurd rfl hb)
      (Nat.zero_add _)
  · rw [dif_neg h]
    exact concatenate_apply_piece (1 : Fin S16384x64.rank) _ _ (ix2 r c) 1 (by show (1 : Nat) < 2; omega) S16384x32 _ rfl rfl 32 rfl
      (ix2 r ⟨c.val - 32, by have := c.isLt; omega⟩)
      (fun b hb => by match b with | ⟨0, _⟩ => rfl | ⟨1, _⟩ => exact absurd rfl hb)
      (by show 32 + (c.val - 32) = c.val; omega)

/-- A third-layer hidden unit of the reference. -/
private theorem hid3_apply (x0 x1 : Arr2 16384 32) (x2 : Arr2 32 4096) (x3 : Arr1 4096) (x4 : Arr2 4096 32) (x5 : Arr1 32)
    (x6 : Arr2 64 4096) (x7 : Arr1 4096) (r : Fin 16384) (k : Fin 4096) :
    val_main_v25 (F := Ideal) x0 x1 x2 x3 x4 x5 x6 x7 (ix2 r k)
      = relu ((∑ c : Fin 64,
          pair (enc x2 x3 x4 x5 fun a => x0 (ix2 r a)) (enc x2 x3 x4 x5 fun a => x1 (ix2 r a)) c * x6 (ix2 c k))
        + x7 (ix1 k)) := by
  have e1 : ∀ c : Fin 64, lidx_main_v21 (ix2 r k) c = ix2 r c := fun c =>
    funext fun a => Fin.ext (by match a with | ⟨0, _⟩ => rfl | ⟨1, _⟩ => rfl)
  have e2 : ∀ c : Fin 64, ridx_main_v21 (ix2 r k) c = ix2 c k := fun c =>
    funext fun a => Fin.ext (by match a with | ⟨0, _⟩ => rfl | ⟨1, _⟩ => rfl)
  have e3 : idx_main_v22 (idx_main_v23 (ix2 r k)) = ix1 k :=
    funext fun a => Fin.ext (by match a with | ⟨0, _⟩ => rfl)
  have ea : (fun j => val_main_v9 (F := Ideal) x0 x2 x3 x4 x5 (ix2 r j)) = enc x2 x3 x4 x5 fun a => x0 (ix2 r a) :=
    funext fun j => enc_apply x0 x2 x3 x4 x5 r j
  have eb : (fun j => val_main_v19 (F := Ideal) x1 x2 x3 x4 x5 (ix2 r j)) = enc x2 x3 x4 x5 fun a => x1 (ix2 r a) :=
    funext fun j => by rw [v19_eq]; exact enc_apply x1 x2 x3 x4 x5 r j
  rw [val_main_v25_apply, val_main_v24_apply, val_main_v21_apply, val_main_v23_apply, val_main_v22_apply,
    val_main_call4_v0_apply, val_main_call4_cst_apply, e3, Ideal.ofBits_def, Ideal.ofBits_zero_f32,
    Ideal.maximumf_def, Ideal.addf_def]
  refine congrArg (fun t => relu (t + x7 (ix1 k))) (Finset.sum_congr rfl fun c _ => ?_)
  rw [e1, e2, cat_apply, ea, eb]

/-- The reference's last stage is the network `G` of its ten arguments. -/
theorem ref_eq (x0 x1 : Arr2 16384 32) (x2 : Arr2 32 4096) (x3 : Arr1 4096) (x4 : Arr2 4096 32) (x5 : Arr1 32)
    (x6 : Arr2 64 4096) (x7 : Arr1 4096) (x8 : Arr2 4096 128) (x9 : Arr1 128) :
    val_main_v29 (F := Ideal) x0 x1 x2 x3 x4 x5 x6 x7 x8 x9 = G x0 x1 x2 x3 x4 x5 x6 x7 x8 x9 := by
  funext i
  obtain ⟨r, q, rfl⟩ : ∃ r q, i = ix2 r q := ⟨i 0, i 1, eq_ix2 i⟩
  have e1 : ∀ k : Fin 4096, lidx_main_v26 (ix2 r q) k = ix2 r k := fun k =>
    funext fun a => Fin.ext (by match a with | ⟨0, _⟩ => rfl | ⟨1, _⟩ => rfl)
  have e2 : ∀ k : Fin 4096, ridx_main_v26 (ix2 r q) k = ix2 k q := fun k =>
    funext fun a => Fin.ext (by match a with | ⟨0, _⟩ => rfl | ⟨1, _⟩ => rfl)
  have e3 : idx_main_v27 (idx_main_v28 (ix2 r q)) = ix1 q :=
    funext fun a => Fin.ext (by match a with | ⟨0, _⟩ => rfl)
  rw [val_main_v29_apply, val_main_v26_apply, val_main_v28_apply, val_main_v27_apply, e3, Ideal.addf_def]
  show _ = head x6 x7 x8 x9
    (pair (enc x2 x3 x4 x5 fun a => x0 (ix2 r a)) (enc x2 x3 x4 x5 fun a => x1 (ix2 r a))) q
  unfold head
  refine congrArg (fun t => t + x9 (ix1 q)) (Finset.sum_congr rfl fun k _ => ?_)
  rw [e1, e2, hid3_apply]

end Cert.ReferenceIdeal.RefValue

end
-- ==== Proof.lean ====
/-
  The kernel computes the same function of its ten arguments as the reference, over the extended reals.

  Both programs evaluate a four-layer network on the matching rows s, n of two 16384 × 32 inputs:
    enc x = relu(relu(x · W1 + b1) · W2 + b2),    out = relu((enc s ‖ enc n) · W3 + b3) · W4 + b4.
  The reference does so with whole-array products. The kernel appends a column of ones to each input and b1, b3 as a
  last row to W1, W3 (so each bias is one more term of the product), interleaves 512-row groups of the two inputs, and at
  each of 8 grid points runs four independent streams of 1024 stacked rows, each taking the 4096 hidden units in 16
  chunks of 256 and adding the chunks' contributions to the next bias one after another. Over the extended reals a
  change of float format is the identity, a 33-term (65-term) product sum is the 32-term (64-term) one plus 1 · bias, and
  a sum over 4096 is the sum of its 16 chunk sums, so both results are the function `Cert.Siamese.G` of the arguments;
  only commutativity and associativity of addition are used, and the precondition (finite inputs) is not needed.

  The modules: Net (the network and the two identities above), Streams (the kernel body as four copies of one
  function), StreamAcc2 / StreamAcc4 / StreamValue (that function entry by entry), HostBlocks (what the input windows
  hold), KernelValue (the output array after the kernel's run), RefValue (the reference's result).
-/
import proofs.«140537_g11802570129985_cont_fleet_79_23_alg».proof.Proof.Gen.Kernel.Frame
import proofs.«140537_g11802570129985_cont_fleet_79_23_alg».proof.Proof.Gen.KernelIdeal.Frame
import proofs.«140537_g11802570129985_cont_fleet_79_23_alg».proof.Proof.Gen.KernelIdeal.Value
import proofs.«140537_g11802570129985_cont_fleet_79_23_alg».proof.Proof.Gen.ReferenceIdeal.Run
import proofs.«140537_g11802570129985_cont_fleet_79_23_alg».proof.Proof.Gen.ReferenceIdeal.Read
import proofs.«140537_g11802570129985_cont_fleet_79_23_alg».proof.Proof.Gen.Kernel
import proofs.«140537_g11802570129985_cont_fleet_79_23_alg».proof.Proof.Gen.KernelIdeal
import proofs.«140537_g11802570129985_cont_fleet_79_23_alg».proof.Proof.Gen.ReferenceIdeal
import proofs.«140537_g11802570129985_cont_fleet_79_23_alg».proof.Proof.Gen.Pre_finite_inputs
import proofs.«140537_g11802570129985_cont_fleet_79_23_alg».proof.Proof.KernelValue
import proofs.«140537_g11802570129985_cont_fleet_79_23_alg».proof.Proof.RefValue
import proofs.«140537_g11802570129985_cont_fleet_79_23_alg».proof.Defs

noncomputable section

namespace Cert.Proof

open Idealize.ShloMosaic Idealize.ShloMosaic.TcCoe Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the network `G` of those arguments in their
    result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelValue.Gm m c, Cert.KernelIdeal.KernelValue.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6, h7, h8, h9⟩ := hagree c
  rw [(h c).1, Cert.ReferenceIdeal.Read.val_main_v29_eq, Cert.ReferenceIdeal.RefValue.ref_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
